-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : FVec F S256x256 .f32) (main_arg3 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩
abbrev S1x256 : Shape := ⟨2, ![1, 256]⟩
abbrev S512x4096 : Shape := ⟨2, ![512, 4096]⟩
abbrev S512x256 : Shape := ⟨2, ![512, 256]⟩

abbrev nBuf : Space → Nat
  | .hbm => 18
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4096x256, .f32⟩
  | .hbm, ⟨7, _⟩ => ⟨S_, .i32⟩
  | .hbm, ⟨8, _⟩ => ⟨S_, .f32⟩
  | .hbm, ⟨9, _⟩ => ⟨S4096x4096, .f32⟩
  | .hbm, ⟨10, _⟩ => ⟨S_, .i32⟩
  | .hbm, ⟨11, _⟩ => ⟨S_, .f32⟩
  | .hbm, ⟨12, _⟩ => ⟨S256x256, .f32⟩
  | .hbm, ⟨13, _⟩ => ⟨S1x256, .f32⟩
  | .hbm, ⟨14, _⟩ => ⟨S_, .i32⟩
  | .hbm, ⟨15, _⟩ => ⟨S_, .f32⟩
  | .hbm, ⟨16, _⟩ => ⟨S1x256, .f32⟩
  | .hbm, ⟨17, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S256x256, .f32⟩
  | .local _ .vmem, ⟨4, _⟩ => ⟨S1x256, .f32⟩
  | .local _ .vmem, ⟨5, _⟩ => ⟨S512x256, .f32⟩
  | .local _ .vmem, ⟨6, _⟩ => ⟨S512x256, .f32⟩
  | .local _ .vmem, ⟨7, _⟩ => ⟨S4096x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_call3_v0 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S4096x256_S4096x256_000_000 : S4096x256.Pads (![0, 0] : Fin 2 → Nat) ![0, 0] ![0, 0] S4096x256
  h_S_ : 0 < S_.numel
  pads_S4096x4096_S4096x4096_000_000 : S4096x4096.Pads (![0, 0] : Fin 2 → Nat) ![0, 0] ![0, 0] S4096x4096
  pads_S256x256_S256x256_000_000 : S256x256.Pads (![0, 0] : Fin 2 → Nat) ![0, 0] ![0, 0] S256x256
  shapeCasts_S256_S1x256 : S256.ShapeCasts S1x256
  pads_S1x256_S1x256_000_000 : S1x256.Pads (![0, 0] : Fin 2 → Nat) ![0, 0] ![0, 0] S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S4096x256_S4096x256_0_0 : (Rect.unit (s := S4096x256) ![0, 0] S4096x256.size inb_S4096x256_S4096x256_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S4096x256_S256x256_S4096x256_1_0_0_1_n_n_wf : DotDims.WF S4096x256 S256x256 S4096x256 [1] [0] [0] [1] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x256.size a
  hwx0_4 : ∀ i : grid0.Coords, EltTy.bits .f32 = 32 ∨ (Rect.block (s := S4096x256) S512x256.size (cc0_transform_4 i) (hinb0_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩
abbrev S1x256 : Shape := ⟨2, ![1, 256]⟩

abbrev nBuf : Space → Nat
  | .hbm => 19
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4096x256, .f32⟩
  | .hbm, ⟨7, _⟩ => ⟨S_, .i32⟩
  | .hbm, ⟨8, _⟩ => ⟨S_, .f32⟩
  | .hbm, ⟨9, _⟩ => ⟨S4096x4096, .f32⟩
  | .hbm, ⟨10, _⟩ => ⟨S_, .i32⟩
  | .hbm, ⟨11, _⟩ => ⟨S_, .f32⟩
  | .hbm, ⟨12, _⟩ => ⟨S256x256, .f32⟩
  | .hbm, ⟨13, _⟩ => ⟨S1x256, .f32⟩
  | .hbm, ⟨14, _⟩ => ⟨S_, .i32⟩
  | .hbm, ⟨15, _⟩ => ⟨S_, .f32⟩
  | .hbm, ⟨16, _⟩ => ⟨S1x256, .f32⟩
  | .hbm, ⟨17, _⟩ => ⟨S4096x256, .f32⟩
  | .hbm, ⟨18, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_call3_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  pads_S4096x256_S4096x256_000_000 : S4096x256.Pads (![0, 0] : Fin 2 → Nat) ![0, 0] ![0, 0] S4096x256
  h_S_ : 0 < S_.numel
  pads_S4096x4096_S4096x4096_000_000 : S4096x4096.Pads (![0, 0] : Fin 2 → Nat) ![0, 0] ![0, 0] S4096x4096
  pads_S256x256_S256x256_000_000 : S256x256.Pads (![0, 0] : Fin 2 → Nat) ![0, 0] ![0, 0] S256x256
  shapeCasts_S256_S1x256 : S256.ShapeCasts S1x256
  pads_S1x256_S1x256_000_000 : S1x256.Pads (![0, 0] : Fin 2 → Nat) ![0, 0] ![0, 0] S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .f32 = 32 ∨ (Rect.block (s := S4096x256) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x4096.size a
  hwx1_0 : ∀ i : grid1.Coords, EltTy.bits .f32 = 32 ∨ (Rect.block (s := S4096x4096) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S4096x256.size a
  hwx1_1 : ∀ i : grid1.Coords, EltTy.bits .f32 = 32 ∨ (Rect.block (s := S4096x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x256.size a
  hwx1_3 : ∀ i : grid1.Coords, EltTy.bits .f32 = 32 ∨ (Rect.block (s := S4096x256) S256x256.size (cc1_transform_3 i) (hinb1_3 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.Spec.lean ====
/-
  One graph-convolution layer on a dense adjacency, as a function of its four arrays over the extended reals:
  out[i, l] = (∑ j, A[i, j] · (∑ k, X[j, k] · W[k, l])) + B[0, l].
  Both programs compute it: the fused kernel with one contraction over all 4096 neighbours, the two-kernel reference
  with sixteen partial contractions of 256 neighbours each, added up in order from a zero fill. The two agree because a
  sum over 4096 consecutive indices is the in-order sum of its sixteen consecutive stretches (`tile_sum`): addition on
  the extended reals is associative with unit 0, and nothing else is used.
-/
import Idealize.ShloMosaic.PureOps.Ideal
import Idealize.ShloMosaic.Lib.ValueIdx
import Mathlib.Algebra.BigOperators.Intervals

noncomputable section

namespace Cert.Spec

open Idealize.ShloMosaic Idealize.ShloMosaic.ValueIdx

abbrev SX : Shape := ⟨2, ![4096, 256]⟩
abbrev SA : Shape := ⟨2, ![4096, 4096]⟩
abbrev SW : Shape := ⟨2, ![256, 256]⟩
abbrev SB : Shape := ⟨2, ![1, 256]⟩

/-- support[j, l] = ∑ k, X[j, k] · W[k, l]. -/
def supportAt (X : SX.Idx → EReal) (W : SW.Idx → EReal) (j : Fin 4096) (l : Fin 256) : EReal :=
  ∑ k : Fin 256, X (ix2 j k) * W (ix2 k l)

/-- out[i, l] = (∑ j, A[i, j] · support[j, l]) + B[0, l]. -/
def outAt (X : SX.Idx → EReal) (A : SA.Idx → EReal) (W : SW.Idx → EReal) (B : SB.Idx → EReal) (i : Fin 4096) (l : Fin 256) : EReal :=
  (∑ j : Fin 4096, A (ix2 i j) * supportAt X W j l) + B (ix2 (0 : Fin 1) l)

/-- The layer as a whole array. -/
def G (X : SX.Idx → EReal) (A : SA.Idx → EReal) (W : SW.Idx → EReal) (B : SB.Idx → EReal) : SX.Idx → EReal :=
  fun y => outAt X A W B (y 0) (y 1)

/-- The in-order accumulation of a sequence by stretches of 256, from a zero fill: after stretch `k`. -/
def tileAcc (f : ℕ → EReal) : ℕ → EReal
  | 0 => 0 + ∑ j ∈ Finset.range 256, f j
  | k + 1 => tileAcc f k + ∑ j ∈ Finset.range 256, f (256 * (k + 1) + j)

/-- It is the sum of everything up to the end of stretch `k`. -/
theorem tile_sum (f : ℕ → EReal) (k : ℕ) : tileAcc f k = ∑ j ∈ Finset.range (256 * (k + 1)), f j := by
  induction k with
  | zero => simp [tileAcc]
  | succ k ih =>
    rw [tileAcc, ih, show 256 * (k + 1 + 1) = 256 * (k + 1) + 256 by ring, Finset.sum_range_add]

end Cert.Spec

end
-- ==== Proof.RefData.lean ====
/-
  The reference program is two pipelined kernel regions: the first writes `support = x · W` one 256-row block per
  grid point; the second walks a 16 × 16 grid, adding at point (i, k) the product of adjacency block (i, k) with support
  block k into a 256 × 256 accumulator it keeps between points, and at k = 15 writes accumulator + bias to output block i.
  This module states, for each region, what every staging buffer holds after the body at each point, as functions of the
  contents `V` the region finds its arrays at: the data both the run and the value computation are stated over.
-/
import proofs.«123078_g2000605683403900_pallasbulk_842_18_alg».proof.Proof.Gen.ReferenceIdeal.Launch
import proofs.«123078_g2000605683403900_pallasbulk_842_18_alg».proof.Proof.Gen.ReferenceIdeal.Skeleton
import proofs.«123078_g2000605683403900_pallasbulk_842_18_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Gen.TwoCalls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents a region finds the core's buffers at
variable (V : (c : Dev nD) → (b : Ref sig .tc) → Buf (Elt F) ((c : Thread nD τ).loc b))

/-! ## Region 0: support = x · W, block row by block row -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256 × 256 buffer as a rectangle: every access of both bodies. -/
abbrev rAll : Rect S256x256 := Rect.unit (s := S256x256) ![0, 0] S256x256.size inb_S256x256_S256x256_0_0
/-- The whole 1 × 256 bias buffer. -/
abbrev rBias : Rect S1x256 := Rect.unit (s := S1x256) ![0, 0] S1x256.size inb_S1x256_S1x256_0_0

/-- What the first body leaves in the output buffer: one store of the product of the two input blocks. -/
def out0_2 (x0 x1 : Vec F S256x256 .f32) : Vec F S256x256 .f32 :=
  View.canon [⟨rAll, k0_pay1 (View.ld x0 rAll) (View.ld x1 rAll)⟩]

/-- Region 0's data: inputs stay at their blocks, the output block is the product; nothing carried. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: out = adj · support + bias, accumulated over 16 column blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n` (row-major: n = 16·i + k): at k = 0 the zero fill plus this point's block product,
    otherwise what the point before left plus this point's block product. -/
def accAt1 (c : Dev nD) : (n : ℕ) → n < cfg1.N → Vec F S256x256 .f32
  | 0, hn => k1_pay2 (k1_pay1 (F := F)) (iblk1 V c 0 ⟨0, hn⟩) (iblk1 V c 1 ⟨0, hn⟩)
  | n + 1, hn =>
    if (n + 1) % 16 = 0 then k1_pay2 (k1_pay1 (F := F)) (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

theorem accAt1_reset (c : Dev nD) (t : Fin cfg1.N) (h : t.val % 16 = 0) :
    accAt1 V c t.val t.isLt = k1_pay2 (k1_pay1 (F := F)) (iblk1 V c 0 t) (iblk1 V c 1 t) := by
  obtain ⟨n, hn⟩ := t
  cases n with
  | zero => rfl
  | succ n => exact (if_pos h).trans rfl

theorem accAt1_step (c : Dev nD) (t : Fin cfg1.N) (h : ¬ t.val % 16 = 0) :
    accAt1 V c t.val t.isLt = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact (if_neg h).trans rfl

/-- The scratch accumulator as a memref. -/
abbrev scM1 : Memref sig .tc .vmem S256x256 .f32 := Memref.whole cc1_scratch0

/-- The region's invariant before position `n`: before the first point every scoped buffer that is no staging buffer of
    this region at anything; afterwards the same with the accumulator at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1 fullShare (accAt1 V c n hn)) ∗ (∃ r, prngReg c r))

/-- Region 1's data: inputs stay at their blocks; the output block (written back at k = 15 only) is the accumulator plus
    the bias row broadcast down the rows; the accumulator is carried in the invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (accAt1 V c t.val t.isLt) (iblk1 V c 2 t) := by dsimp only [dat1]

end Cert.ReferenceIdeal.Gen.TwoCalls

end
-- ==== Proof.RefEntry.lean ====
/-
  The contents the two regions are entered at and left at, as valuations of the core's buffers: region 0 is entered
  after the host prefix (four zero-width pads and a reshape); region 1 is entered with region 0's arrays at what its
  write-backs left (the support array filled block by block) and every other buffer unchanged; the program ends with
  region 1's arrays at what its write-backs left.
-/
import proofs.«123078_g2000605683403900_pallasbulk_842_18_alg».proof.Proof.RefData
import proofs.«123078_g2000605683403900_pallasbulk_842_18_alg».proof.Proof.Gen.ReferenceIdeal.Regions

set_option maxRecDepth 16384

noncomputable section

namespace Cert.ReferenceIdeal.Gen.TwoCalls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers when region 0 is entered: after the eight host stretches. -/
abbrev Wa (c : Dev nD) : Valuation τ sig (Elt F) := V8 m c
/-- The same read at the TensorCore's references. -/
abbrev Va : (c : Dev nD) → (b : Ref sig .tc) → Buf (Elt F) ((c : Thread nD τ).loc b) := fun c b => Wa m c b

/-- At region 0's exit (region 1's entry): its arrays at what the pipeline leaves, every other buffer as entered. -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
/-- The same read at the TensorCore's references. -/
abbrev Vb : (c : Dev nD) → (b : Ref sig .tc) → Buf (Elt F) ((c : Thread nD τ).loc b) := fun c b => Wb m c b

/-- At region 1's exit (the program's end): its arrays at what the pipeline leaves, every other buffer as entered. -/
def Wc (c : Dev nD) : Valuation τ sig (Elt F) :=
  Pipeline.withArrays spec1 c (Wb m c) fun w => (dat1 (Vb m) c).arrAt w cfg1.N
theorem Wc_arr (c : Dev nD) (w : Fin cfg1.W) :
    Wc m c (Proc.devRef .tc (Pipeline.arrRef spec1 w)) = (dat1 (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
/-- The same read at the TensorCore's references. -/
abbrev Vc : (c : Dev nD) → (b : Ref sig .tc) → Buf (Elt F) ((c : Thread nD τ).loc b) := fun c b => Wc m c b

end Cert.ReferenceIdeal.Gen.TwoCalls

end
-- ==== Proof.Entry.lean ====
/-
  Both programs begin with the same host prefix: each of x, adj, W is padded by zero rows and columns (a no-op kept as
  the operation it is), the bias is reshaped to one row and padded likewise. These are the arrays both kernels' regions
  are entered with, as functions of the programs' arguments.
-/
import proofs.«123078_g2000605683403900_pallasbulk_842_18_alg».proof.Proof.Gen.KernelIdeal.Frame.Runs
import proofs.«123078_g2000605683403900_pallasbulk_842_18_alg».proof.Proof.RefEntry
import proofs.«123078_g2000605683403900_pallasbulk_842_18_alg».proof.Proof.Spec
import Idealize.ShloMosaic.Lib.StableHlo.Run

set_option maxRecDepth 16384

noncomputable section

namespace Cert.Entry

open Idealize.ShloMosaic Idealize.ShloMosaic.TcCoe Idealize.SL.Sem

variable {F : FTy → Type} [FloatOps F]

abbrev S0 : Shape := ⟨0, ![]⟩
abbrev S256 : Shape := ⟨1, ![256]⟩

/-- The padding value: the integer 0 converted to a float. -/
def padVal : Vec F S0 .f32 := sitofp .f32 (constantI S0 32 0#32)

/-- x as the first region finds it. -/
def padX (x : Vec F Cert.Spec.SX .f32) : Vec F Cert.Spec.SX .f32 :=
  pad Cert.Spec.SX ![0, 0] ![0, 0] ![0, 0] x (padVal (F := F)) (by decide) (by decide)
/-- adj as the regions find it. -/
def padA (x : Vec F Cert.Spec.SA .f32) : Vec F Cert.Spec.SA .f32 :=
  pad Cert.Spec.SA ![0, 0] ![0, 0] ![0, 0] x (padVal (F := F)) (by decide) (by decide)
/-- W as the regions find it. -/
def padW (x : Vec F Cert.Spec.SW .f32) : Vec F Cert.Spec.SW .f32 :=
  pad Cert.Spec.SW ![0, 0] ![0, 0] ![0, 0] x (padVal (F := F)) (by decide) (by decide)
/-- The bias as one row, as the regions find it. -/
def padB (b : Vec F S256 .f32) : Vec F Cert.Spec.SB .f32 :=
  pad Cert.Spec.SB ![0, 0] ![0, 0] ![0, 0] (shapeCast Cert.Spec.SB b (by decide)) (padVal (F := F)) (by decide) (by decide)

section Ker
open Cert.KernelIdeal Cert.KernelIdeal.Gen
variable (m : (ℓ : Loc nD τ sig) → Buf (Elt F) ℓ) (c : Dev nD)

theorem ker_v0 : (V m c main_v0 : Cert.Spec.SX.Idx → Elt F .f32) = padX (m ((c.tc : Thread nD τ).loc main_arg0)) := by
  dsimp only [V]
  simp only [hostOps0, hostOps0_1, hostOps0_2, hostOps0_3, hostOps0_4, hostOps0_5, hostOps0_6, hostOps0_7, List.flatten_cons, List.flatten_nil, List.append_nil, List.cons_append, List.nil_append]
  after_results
  rfl
theorem ker_v1 : (V m c main_v1 : Cert.Spec.SA.Idx → Elt F .f32) = padA (m ((c.tc : Thread nD τ).loc main_arg1)) := by
  dsimp only [V]
  simp only [hostOps0, hostOps0_1, hostOps0_2, hostOps0_3, hostOps0_4, hostOps0_5, hostOps0_6, hostOps0_7, List.flatten_cons, List.flatten_nil, List.append_nil, List.cons_append, List.nil_append]
  after_results
  rfl
theorem ker_v2 : (V m c main_v2 : Cert.Spec.SW.Idx → Elt F .f32) = padW (m ((c.tc : Thread nD τ).loc main_arg2)) := by
  dsimp only [V]
  simp only [hostOps0, hostOps0_1, hostOps0_2, hostOps0_3, hostOps0_4, hostOps0_5, hostOps0_6, hostOps0_7, List.flatten_cons, List.flatten_nil, List.append_nil, List.cons_append, List.nil_append]
  after_results
  rfl
theorem ker_v4 : (V m c main_v4 : Cert.Spec.SB.Idx → Elt F .f32) = padB (m ((c.tc : Thread nD τ).loc main_arg3)) := by
  dsimp only [V]
  simp only [hostOps0, hostOps0_1, hostOps0_2, hostOps0_3, hostOps0_4, hostOps0_5, hostOps0_6, hostOps0_7, List.flatten_cons, List.flatten_nil, List.append_nil, List.cons_append, List.nil_append]
  after_results
  rfl
end Ker

section Ref
open Cert.ReferenceIdeal Cert.ReferenceIdeal.Gen Cert.ReferenceIdeal.Gen.TwoCalls
variable (m : (ℓ : Loc nD τ sig) → Buf (Elt F) ℓ) (c : Dev nD)

theorem ref_v0 : (Va m c main_v0 : Cert.Spec.SX.Idx → Elt F .f32) = padX (m ((c.tc : Thread nD τ).loc main_arg0)) := by
  dsimp only [Va, Wa, V8, V7, V6, V5, V4, V3, V2, V1, V0]
  simp only [hostOps0, hostOps0_1, hostOps0_2, hostOps0_3, hostOps0_4, hostOps0_5, hostOps0_6, hostOps0_7]
  after_results
  rfl
theorem ref_v1 : (Va m c main_v1 : Cert.Spec.SA.Idx → Elt F .f32) = padA (m ((c.tc : Thread nD τ).loc main_arg1)) := by
  dsimp only [Va, Wa, V8, V7, V6, V5, V4, V3, V2, V1, V0]
  simp only [hostOps0, hostOps0_1, hostOps0_2, hostOps0_3, hostOps0_4, hostOps0_5, hostOps0_6, hostOps0_7]
  after_results
  rfl
theorem ref_v2 : (Va m c main_v2 : Cert.Spec.SW.Idx → Elt F .f32) = padW (m ((c.tc : Thread nD τ).loc main_arg2)) := by
  dsimp only [Va, Wa, V8, V7, V6, V5, V4, V3, V2, V1, V0]
  simp only [hostOps0, hostOps0_1, hostOps0_2, hostOps0_3, hostOps0_4, hostOps0_5, hostOps0_6, hostOps0_7]
  after_results
  rfl
theorem ref_v4 : (Va m c main_v4 : Cert.Spec.SB.Idx → Elt F .f32) = padB (m ((c.tc : Thread nD τ).loc main_arg3)) := by
  dsimp only [Va, Wa, V8, V7, V6, V5, V4, V3, V2, V1, V0]
  simp only [hostOps0, hostOps0_1, hostOps0_2, hostOps0_3, hostOps0_4, hostOps0_5, hostOps0_6, hostOps0_7]
  after_results
  rfl
end Ref

end Cert.Entry

end
-- ==== Proof.LibMatmulPlain.lean ====
/-
  A plain matrix product `[M, K] · [K, N]` (contract the left operand's axis 1 with the right operand's axis 0, no batch
  axis) accumulated into the zero splat, read at an index over the extended reals: the sum over the contracted index.
-/
import Idealize.ShloMosaic.PureOps.Ideal.Laws
import Idealize.ShloMosaic.Lib.ValueIdx

noncomputable section

namespace Idealize.ShloMosaic.Ideal

open Idealize.ShloMosaic Idealize.ShloMosaic.ValueIdx

/-- An index's coordinate value depends on the axis' position only. -/
private theorem idx_val_congr {s : Shape} (j : s.Idx) (p q : Nat) (hp : p < s.rank) (hq : q < s.rank) (h : p = q) :
    (j ⟨p, hp⟩).val = (j ⟨q, hq⟩).val := by
  subst h; rfl

/-- The left operand's row coordinate is the result's row coordinate. -/
theorem lhsIdx_plain_0 {M K N : ℕ} (d : DotDims ⟨2, ![M, K]⟩ ⟨2, ![K, N]⟩ ⟨2, ![M, N]⟩)
    (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  exact idx_val_congr j _ _ _ _ (by simp [hlb, hln])

/-- The right operand's column coordinate is the result's column coordinate. -/
theorem rhsIdx_plain_1 {M K N : ℕ} (d : DotDims ⟨2, ![M, K]⟩ ⟨2, ![K, N]⟩ ⟨2, ![M, N]⟩)
    (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  exact idx_val_congr j _ _ _ _ (by simp [hlb, hln, hrn])

/-- `(lhs · rhs)[p, q] = ∑ k, lhs[p, k] · rhs[k, q]` for a matrix unit product into a zero accumulator whose dimension
    numbers are the plain ones. -/
theorem matmul_plain_zero_apply {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [matmul_constant_zero_apply]
  have hr : d.contr.rank = 1 := by rw [d.rank_contr, hlc]; rfl
  have hs : d.contr.size ⟨0, by omega⟩ = K := by
    rw [d.size_contr 0 (by rw [hlc]; exact Nat.one_pos)]
    simp [hlc]
  rw [← Equiv.sum_comp (contrEquiv1 d K hr hs).symm]
  refine Finset.sum_congr rfl fun k _ => ?_
  have hk := contrEquiv1_symm_val d K hr hs k
  have hl : d.lhsIdx (ix2 p q) ((contrEquiv1 d K hr hs).symm k) = ix2 p k := by
    funext a
    apply Fin.ext
    match a with
    | ⟨0, _⟩ => exact lhsIdx_plain_0 d hln hlb _ _
    | ⟨1, _⟩ => exact (d.lhsIdx_val_of_single hlc _ _).trans hk
  have hrr : d.rhsIdx (ix2 p q) ((contrEquiv1 d K hr hs).symm k) = ix2 k q := by
    funext a
    apply Fin.ext
    match a with
    | ⟨0, _⟩ => exact (d.rhsIdx_val_of_single hrc _ _).trans hk
    | ⟨1, _⟩ => exact rhsIdx_plain_1 d hln hrn hlb hrb _ _
  rw [hl, hrr]

end Idealize.ShloMosaic.Ideal

end
-- ==== Proof.KerValue.lean ====
/-
  What the fused kernel's result array holds after its run, index by index, as the layer function of the four arrays the
  region finds (the padded inputs): at the grid's points 0 and 4 the body stores support = x · W into its scratch, every
  point contracts its 512-row adjacency block with that scratch over all 4096 neighbours and adds the bias row; the
  eight blocks tile the result.
-/
import proofs.«123078_g2000605683403900_pallasbulk_842_18_alg».proof.Proof.Gen.KernelIdeal.Value
import proofs.«123078_g2000605683403900_pallasbulk_842_18_alg».proof.Proof.Spec
import proofs.«123078_g2000605683403900_pallasbulk_842_18_alg».proof.Proof.LibMatmulPlain
import Idealize.ShloMosaic.Lib.Pipeline.Value
import Idealize.ShloMosaic.PureOps.Ideal.Laws

set_option maxRecDepth 16384

noncomputable section

namespace Cert.KernelIdeal.Fused

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

section Pieces
variable {F : FTy → Type} [FloatOps F]

/-- A whole buffer's rectangle starts at offset zero on both axes. -/
theorem hz : (![0, 0] : Fin 2 → Nat) = fun _ => 0 := funext fun a => by fin_cases a <;> rfl

/-- At a point that stores the scratch (points 0 and 4) its one store covers the scratch: it is left holding the
    body's first payload, of the x block and the W block. -/
theorem sout_A (c : Dev nD) (i : grid0.Coords) (a1 : Memref sig .tc .vmem S512x4096 .f32) (h1 : a1.IsWhole) (a2 : Memref sig .tc .vmem S4096x256 .f32) (h2 : a2.IsWhole) (a3 : Memref sig .tc .vmem S256x256 .f32) (h3 : a3.IsWhole) (a4 : Memref sig .tc .vmem S1x256 .f32) (h4 : a4.IsWhole) (a5 : Memref sig .tc .vmem S512x256 .f32) (h5 : a5.IsWhole) (a6 : Memref sig .tc .vmem S4096x256 .bf16) (h6 : a6.IsWhole) (hc : cond0_0 i)
    (x0 : Vec F S512x4096 .f32) (x1 : Vec F S4096x256 .f32) (x2 : Vec F S256x256 .f32) (x3 : Vec F S1x256 .f32) :
    sout0_A_0 c i a1 h1 a2 h2 a3 h3 a4 h4 a5 h5 a6 h6 hc x0 x1 x2 x3 = k0_pay1 x1 x2 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz]
  simp only [View.readAt_eq_ld, h2.read_unread, h3.read_unread, View.ld_unit_zero (S := S4096x256) hz, View.ld_unit_zero (S := S256x256) hz]

/-- At such a point the output block is left holding the body's second payload of the adjacency block, of the scratch
    as the point has just stored it, and of the bias block. -/
theorem out_A (c : Dev nD) (i : grid0.Coords) (a1 : Memref sig .tc .vmem S512x4096 .f32) (h1 : a1.IsWhole) (a2 : Memref sig .tc .vmem S4096x256 .f32) (h2 : a2.IsWhole) (a3 : Memref sig .tc .vmem S256x256 .f32) (h3 : a3.IsWhole) (a4 : Memref sig .tc .vmem S1x256 .f32) (h4 : a4.IsWhole) (a5 : Memref sig .tc .vmem S512x256 .f32) (h5 : a5.IsWhole) (a6 : Memref sig .tc .vmem S4096x256 .bf16) (h6 : a6.IsWhole) (hc : cond0_0 i)
    (x0 : Vec F S512x4096 .f32) (x1 : Vec F S4096x256 .f32) (x2 : Vec F S256x256 .f32) (x3 : Vec F S1x256 .f32) :
    out0_A_4 c i a1 h1 a2 h2 a3 h3 a4 h4 a5 h5 a6 h6 hc x0 x1 x2 x3 = k0_pay2 x0 (k0_pay1 x1 x2) x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread, View.readCov_unit_zero (S := S4096x256) _ hz, View.ld_unit_zero (S := S512x4096) hz, View.ld_unit_zero (S := S4096x256) hz, View.ld_unit_zero (S := S256x256) hz, View.ld_unit_zero (S := S1x256) hz]

/-- At every other point the output block is left holding the second payload of the adjacency block, of the scratch as
    the point before left it, and of the bias block. -/
theorem out_B (c : Dev nD) (i : grid0.Coords) (a1 : Memref sig .tc .vmem S512x4096 .f32) (h1 : a1.IsWhole) (a2 : Memref sig .tc .vmem S4096x256 .f32) (h2 : a2.IsWhole) (a3 : Memref sig .tc .vmem S256x256 .f32) (h3 : a3.IsWhole) (a4 : Memref sig .tc .vmem S1x256 .f32) (h4 : a4.IsWhole) (a5 : Memref sig .tc .vmem S512x256 .f32) (h5 : a5.IsWhole) (a6 : Memref sig .tc .vmem S4096x256 .bf16) (h6 : a6.IsWhole) (hc : ¬cond0_0 i)
    (x0 : Vec F S512x4096 .f32) (x1 : Vec F S4096x256 .f32) (x2 : Vec F S256x256 .f32) (x3 : Vec F S1x256 .f32) (xs0 : Vec F S4096x256 .bf16) :
    out0_B_4 c i a1 h1 a2 h2 a3 h3 a4 h4 a5 h5 a6 h6 hc x0 x1 x2 x3 xs0 = k0_pay2 x0 xs0 x3 := by
  unfold out0_B_4
  rw [View.read_writes_eq_canon _ _ _ (cover0_B_4 c i a1 h1 a2 h2 a3 h3 a4 h4 a5 h5 a6 h6 hc x0 x1 x2 x3 xs0)]
  unfold kernelRun0_B
  dsimp only
  sl_unfold_words
  rw [View.canon_unit_zero hz]
  simp only [View.readAt_eq_ld, h1.read_unread, h4.read_unread, h6.read_unread, View.ld_unit_zero (S := S512x4096) hz, View.ld_unit_zero (S := S4096x256) hz, View.ld_unit_zero (S := S1x256) hz]

end Pieces

section AtIdeal

/-- support: the scratch payload at row j, column l is the contraction of x's row j with W's column l. -/
theorem pay1_at (x1 : Vec Ideal S4096x256 .f32) (x2 : Vec Ideal S256x256 .f32) (j : Fin 4096) (l : Fin 256) :
    k0_pay1 (F := Ideal) x1 x2 (ix2 j l) = ∑ k : Fin 256, x1 (ix2 j k) * x2 (ix2 k l) := by
  unfold k0_pay1
  simp only [shapeCast_self]
  refine (Ideal.matmul_plain_zero_apply dot_S4096x256_S256x256_S4096x256_1_0_0_1_n_n rfl rfl rfl rfl rfl rfl none
    (truncf .bf16 x1 Facts₀.bitsLt_bf16_f32) (truncf .bf16 x2 Facts₀.bitsLt_bf16_f32) j l).trans ?_
  rfl

/-- The output payload at row p, column q: row p of the adjacency block contracted with column q of the scratch over all
    4096 neighbours, plus the bias entry of column q. -/
theorem pay2_at (x0 : Vec Ideal S512x4096 .f32) (xs : FVec Ideal S4096x256 .bf16) (x3 : Vec Ideal S1x256 .f32) (p : Fin 512) (q : Fin 256) :
    k0_pay2 (F := Ideal) x0 xs x3 (ix2 p q) = (∑ j : Fin 4096, x0 (ix2 p j) * xs (ix2 j q)) + x3 (ix2 (0 : Fin 1) q) := by
  unfold k0_pay2
  simp only [shapeCast_self]
  refine (addf_apply _ _ (ix2 p q)).trans ?_
  refine congrArg₂ (· + ·) ?_ ?_
  · refine (Ideal.matmul_plain_zero_apply dot_S512x4096_S4096x256_S512x256_1_0_0_1_n_n rfl rfl rfl rfl rfl rfl none
      (truncf .bf16 x0 Facts₀.bitsLt_bf16_f32) xs p q).trans ?_
    rfl
  · exact broadcastTo_apply x3 Facts₀.broadcasts_S1x256_S512x256 (ix2 p q) (ix2 (0 : Fin 1) q) (fun a => by
      match a with
      | ⟨0, _⟩ => rfl
      | ⟨1, _⟩ => rfl)

end AtIdeal

section Blocks

/-- The four arrays the region finds, and each window's block at a point, at their literal types. -/
abbrev arrX (c : Dev nD) : Vec Ideal S4096x256 .f32 := V m c main_v0
abbrev arrA (c : Dev nD) : Vec Ideal S4096x4096 .f32 := V m c main_v1
abbrev arrW (c : Dev nD) : Vec Ideal S256x256 .f32 := V m c main_v2
abbrev arrB (c : Dev nD) : Vec Ideal S1x256 .f32 := V m c main_v4
abbrev blkA (c : Dev nD) (t : Fin cfg0.N) : Vec Ideal S512x4096 .f32 := iblk m c 0 t
abbrev blkX (c : Dev nD) (t : Fin cfg0.N) : Vec Ideal S4096x256 .f32 := iblk m c 1 t
abbrev blkW (c : Dev nD) (t : Fin cfg0.N) : Vec Ideal S256x256 .f32 := iblk m c 2 t
abbrev blkB (c : Dev nD) (t : Fin cfg0.N) : Vec Ideal S1x256 .f32 := iblk m c 3 t

/-- The printed index maps over the grid: the adjacency and the output move by one block of rows per point, the
    other three windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- x's window reads the whole array at every point. -/
theorem blkX_eq (c : Dev nD) (t : Fin cfg0.N) : blkX m c t = arrX m c := by
  obtain ⟨-, -, e0, e1, -⟩ := idx_facts t
  funext y
  show arrX m c (((cfg0.win 1).blk t).view.emb y) = arrX m c y
  refine congrArg (arrX m c) (funext fun a => Fin.ext ?_)
  match a with
  | ⟨0, _⟩ => show win0_1.index t (0 : Fin 2) * 4096 + 1 * (y 0).val = (y 0).val; rw [e0]; omega
  | ⟨1, _⟩ => show win0_1.index t (1 : Fin 2) * 256 + 1 * (y 1).val = (y 1).val; rw [e1]; omega

/-- W's window reads the whole array at every point. -/
theorem blkW_eq (c : Dev nD) (t : Fin cfg0.N) : blkW m c t = arrW m c := by
  obtain ⟨-, -, -, -, e0, e1, -⟩ := idx_facts t
  funext y
  show arrW m c (((cfg0.win 2).blk t).view.emb y) = arrW m c y
  refine congrArg (arrW m c) (funext fun a => Fin.ext ?_)
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- The bias window reads the whole row at every point. -/
theorem blkB_eq (c : Dev nD) (t : Fin cfg0.N) : blkB m c t = arrB m c := by
  obtain ⟨-, -, -, -, -, -, e0, e1, -⟩ := idx_facts t
  funext y
  show arrB m c (((cfg0.win 3).blk t).view.emb y) = arrB m c y
  refine congrArg (arrB m c) (funext fun a => Fin.ext ?_)
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

/-- The adjacency window at point t reads rows 512·t … 512·t + 511. -/
theorem blkA_apply (c : Dev nD) (t : Fin cfg0.N) (p : Fin 512) (j : Fin 4096) (r : Fin 4096) (hr : r.val = 512 * t.val + p.val) :
    blkA m c t (ix2 p j) = arrA m c (ix2 r j) := by
  obtain ⟨e0, e1, -⟩ := idx_facts t
  show arrA m c (((cfg0.win 0).blk t).view.emb (ix2 p j)) = arrA m c (ix2 r j)
  refine congrArg (arrA m c) (funext fun a => Fin.ext ?_)
  match a with
  | ⟨0, _⟩ => show win0_0.index t (0 : Fin 2) * 512 + 1 * p.val = r.val; rw [e0, hr]; omega
  | ⟨1, _⟩ => show win0_0.index t (1 : Fin 2) * 4096 + 1 * j.val = j.val; rw [e1]; omega

/-- What the carried scratch holds after every point: support = x · W of the whole arrays (points 0 and 4 store it,
    the others leave it). -/
theorem scratch_eq (c : Dev nD) : ∀ (n : ℕ) (h : n < cfg0.N), (outsAt0 m c n h).2 = k0_pay1 (arrX m c) (arrW m c)
  | 0, h => by
    rw [outsAt0_A m c ⟨0, h⟩ rfl]
    dsimp only
    refine (sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (blkA m c ⟨0, h⟩) (blkX m c ⟨0, h⟩) (blkW m c ⟨0, h⟩) (blkB m c ⟨0, h⟩)).trans ?_
    rw [blkX_eq, blkW_eq]
  | n + 1, h => by
    by_cases h0 : (n + 1) % 4 = 0
    · rw [outsAt0_A m c ⟨n + 1, h⟩ h0]
      dsimp only
      refine (sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (blkA m c ⟨n + 1, h⟩) (blkX m c ⟨n + 1, h⟩) (blkW m c ⟨n + 1, h⟩) (blkB m c ⟨n + 1, h⟩)).trans ?_
      rw [blkX_eq, blkW_eq]
    · rw [outsAt0_B m c ⟨n + 1, h⟩ h0]
      dsimp only
      unfold sout0_B_0
      exact scratch_eq c n (Nat.lt_of_succ_lt h)

/-- What every point leaves in the output's staging buffer: its adjacency block contracted with support, plus bias. -/
theorem out_eq (c : Dev nD) (t : Fin cfg0.N) :
    (outsAt0 m c t.val t.isLt).1 = k0_pay2 (blkA m c t) (k0_pay1 (arrX m c) (arrW m c)) (arrB m c) := by
  by_cases h0 : t.val % 4 = 0
  · rw [outsAt0_A m c t h0]
    dsimp only
    refine (out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (blkA m c t) (blkX m c t) (blkW m c t) (blkB m c t)).trans ?_
    rw [blkX_eq, blkW_eq, blkB_eq]
  · rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (blkA m c t) (blkX m c t) (blkW m c t) (blkB m c t) (outsAt0 m c (t.val - 1) (Nat.lt_of_le_of_lt (Nat.sub_le _ _) t.isLt)).2).trans ?_
    rw [scratch_eq m c (t.val - 1), blkB_eq]

end Blocks

section Result

/-- One entry of an output block: a row of the adjacency block contracted with support, plus the bias entry, is the
    layer function at the array row that block row sits at. -/
theorem block_value (xa : FVec Ideal S512x4096 .f32) (X : FVec Ideal S4096x256 .f32) (A : FVec Ideal S4096x4096 .f32)
    (W : FVec Ideal S256x256 .f32) (B : FVec Ideal S1x256 .f32) (p : Fin 512) (q : Fin 256) (r : Fin 4096)
    (hA : ∀ j : Fin 4096, xa (ix2 p j) = A (ix2 r j)) :
    k0_pay2 (F := Ideal) xa (k0_pay1 (F := Ideal) X W) B (ix2 p q) = Cert.Spec.G X A W B (ix2 r q) := by
  refine (pay2_at xa (k0_pay1 (F := Ideal) X W) B p q).trans ?_
  show _ = (∑ j : Fin 4096, A (ix2 r j) * Cert.Spec.supportAt X W j q) + B (ix2 (0 : Fin 1) q)
  refine congrArg (· + B (ix2 (0 : Fin 1) q)) (Finset.sum_congr rfl fun j _ => ?_)
  rw [hA j, pay1_at X W j q]
  rfl

/-- What point t writes back is block t of the layer function of the arrays the region finds. -/
theorem flushed_eq (c : Dev nD) (t : Fin cfg0.N) :
    (dats m 0 c).flushed 4 t
      = ((cfg0.win 4).blk t).view.read (Elt Ideal) (Cert.Spec.G (arrX m c) (arrA m c) (arrW m c) (arrB m c)) := by
  rw [Cert.KernelIdeal.Value.flushed4, out_eq]
  obtain ⟨-, -, -, -, -, -, -, -, e0, e1⟩ := idx_facts t
  have hN : t.val < 8 := lt_of_lt_of_eq t.isLt N_0
  funext y
  have hy0 : (y 0).val < 512 := (y 0).isLt
  have hy1 : (y 1).val < 256 := (y 1).isLt
  have hinj : win0_4.xinj (grid0.coords t) y = ix2 (⟨(y 0).val, hy0⟩ : Fin 512) (⟨(y 1).val, hy1⟩ : Fin 256) :=
    funext fun a => by
      match a with
      | ⟨0, _⟩ => rfl
      | ⟨1, _⟩ => rfl
  have hemb : ((cfg0.win 4).blk t).view.emb y
      = ix2 (⟨512 * t.val + (y 0).val, by omega⟩ : Fin 4096) (⟨(y 1).val, hy1⟩ : Fin 256) :=
    funext fun a => Fin.ext (by
      match a with
      | ⟨0, _⟩ => show win0_4.index t (0 : Fin 2) * 512 + 1 * (y 0).val = 512 * t.val + (y 0).val; rw [e0]; omega
      | ⟨1, _⟩ => show win0_4.index t (1 : Fin 2) * 256 + 1 * (y 1).val = (y 1).val; rw [e1]; omega)
  show k0_pay2 (F := Ideal) (blkA m c t) (k0_pay1 (F := Ideal) (arrX m c) (arrW m c)) (arrB m c) (win0_4.xinj (grid0.coords t) y)
    = Cert.Spec.G (arrX m c) (arrA m c) (arrW m c) (arrB m c) (((cfg0.win 4).blk t).view.emb y)
  rw [hinj, hemb]
  exact block_value (blkA m c t) (arrX m c) (arrA m c) (arrW m c) (arrB m c) _ _ _ (fun j => blkA_apply m c t _ j _ rfl)

/-- An index of the result array is in point t's block iff each coordinate is in the block's range on its axis. -/
theorem mem_blk (t : Fin cfg0.N) (i : S4096x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v5).slice (win0_4.rect t)).set ↔ _
  rw [View.set_slice_whole, Rect.mem_set_unit]
  exact Iff.rfl

/-- Row r of the result array is in the block of point r / 512: the eight blocks tile the array. -/
theorem covered (i : S4096x256.Idx) : ∃ t : Fin cfg0.N, (cfg0.win 4).flush t = true ∧ i ∈ ((cfg0.win 4).blk t).view.set := by
  have hi0 : (i 0).val < 4096 := (i 0).isLt
  have hi1 : (i 1).val < 256 := (i 1).isLt
  obtain ⟨t, ht⟩ : ∃ t : Fin cfg0.N, t.val = (i 0).val / 512 :=
    ⟨⟨(i 0).val / 512, lt_of_lt_of_eq (by omega : (i 0).val / 512 < 8) N_0.symm⟩, rfl⟩
  obtain ⟨-, -, -, -, -, -, -, -, e0, e1⟩ := idx_facts t
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 256 ≤ (i 1).val ∧ (i 1).val < win0_4.index t (1 : Fin 2) * 256 + 256; rw [e1]; omega

/-- The result array after the run is the layer function of the arrays the region is entered with. -/
theorem kernel_result (c : Dev nD) :
    ((dats m 0 c).arrAt 4 cfg0.N : S4096x256.Idx → EReal)
      = Cert.Spec.G (V m c main_v0) (V m c main_v1) (V m c main_v2) (V m c main_v4) :=
  (dats m 0 c).arrAt_eq_of_cover 4 (Cert.Spec.G (arrX m c) (arrA m c) (arrW m c) (arrB m c)) (fun t _ => flushed_eq m c t) covered

end Result

end Cert.KernelIdeal.Fused

end
-- ==== Proof.RefSupport.lean ====
/-
  Region 0's body at every grid point: it loads the two input blocks whole, forms their product and stores it whole into
  the output block; the inputs' buffers are left as found and nothing else is touched.
-/
import proofs.«123078_g2000605683403900_pallasbulk_842_18_alg».proof.Proof.RefData

set_option maxRecDepth 16384

noncomputable section

namespace Cert.ReferenceIdeal.Gen.TwoCalls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers at every point -/

/-- The x window's current buffer holds the point's x block, whether or not the point fetched it: a fetch puts the
    block there, and without one the block index has not moved since the point before, whose body left the block
    in place. Stated for any proof data over the entry contents that keeps the block. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := by
    intro t
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

/-- The W window's current buffer holds W at every point: its index map is constant, so only the first point
    fetches it, and every body leaves it in place. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := by
    intro t
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The one store covers the output buffer -/

/-- A single piece over the whole 256 × 256 rectangle reaches every index. -/
theorem cover0_2 (p : Vec F S256x256 .f32) (y : S256x256.Idx) :
    ∃ pc ∈ ([⟨rAll, p⟩] : List (View.Piece (Elt F) S256x256 .f32)), y ∈ pc.1.set :=
  View.cover_of_tiled [⟨rAll, p⟩] S256x256.size (by rfl) y

/-! ## The body on arbitrary whole buffers -/

set_option maxHeartbeats 1000000 in
/-- On whole 256 × 256 buffers, the two inputs reading `x0` and `x1` and the output at anything, the kernel runs to
    its continuation with the inputs as they were and the output reading `out0_2 x0 x1`: two whole loads, the product,
    a load of the output that is not used, and one whole store. -/
theorem sound_kernel0 (c : Dev nD) (E : Set ℕ) (i : grid0.Coords)
    (arg1 : Memref sig .tc .vmem S256x256 .f32) (harg1 : arg1.IsWhole)
    (arg2 : Memref sig .tc .vmem S256x256 .f32) (harg2 : arg2.IsWhole)
    (arg3 : Memref sig .tc .vmem S256x256 .f32) (harg3 : arg3.IsWhole)
    (x0 x1 : Vec F S256x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0_support_kernel i arg1 harg1 arg2 harg2 arg3 harg3) K := by
  simp only [cc0_support_kernel_eq_skeleton]; unfold cc0_support_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr
    · ipureintro; rfl
    · iexact H1
  isplitl [H2]
  · iexists f2; isplitr
    · ipureintro; rfl
    · iexact H2
  iexists _; isplitr
  swap
  · iexact H3
  ipureintro
  exact View.read_writes_eq_canon _ _ _ (cover0_2 _)

/-! ## The body at a grid point -/

/-- What the body is handed at point `t`: the invariant, the core's debts, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debts, and each buffer at what `dat0` says the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At every point the inputs' buffers hold their blocks, so the kernel's triple applies with `x0`, `x1` the two
    blocks; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0 against `dat0`. -/
theorem body_obligation0 (c : Dev nD) : BodyObligation (dat0 (F := F) V c) (defs₀ (F := F)) Variants.none () Set.univ := by
  intro t
  rw [bigSep_W0, bigSep_W0]
  exact sound_body0 V c t

end Cert.ReferenceIdeal.Gen.TwoCalls

end
-- ==== Proof.RefAggregate.lean ====
/-
  Region 1's body at every grid point (i, k): at k = 0 it zero-fills the accumulator; at every point it adds the product
  of its adjacency block and support block to the accumulator; at k = 15 it stores accumulator + bias row into the output
  block. The accumulator's contents travel in the invariant from point to point.
-/
import proofs.«123078_g2000605683403900_pallasbulk_842_18_alg».proof.Proof.RefData
import Idealize.ShloMosaic.Lib.Pipeline.Value

set_option maxRecDepth 16384

noncomputable section

namespace Cert.ReferenceIdeal.Gen.TwoCalls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, in closed form over the grid -/

/-- The first branch's condition (the accumulator's reset), from the grid coordinates. -/
abbrev cond1_0 (i : grid1.Coords) : Prop := (Scalar.cmpi .ne (Scalar.extui (Scalar.cmpi .eq (BitVec.ofNat 32 (i 1).val) 0#32)) 0#32) = 1#1
/-- It holds at the points with k = 0 (row-major position ≡ 0 mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The second branch's condition (the output store). -/
abbrev cond1_1 (i : grid1.Coords) : Prop := k1_cond2 i = 1#1
/-- It holds at the points with k = 15. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where k ≠ 15 the output window is idle: the body stores nothing into it, -/
theorem idleAt1_3 (t : Fin cfg1.N) (h : ¬cond1_1 (grid1.coords t)) : cfg1.idle 3 (grid1.coords t) = true := by
  show (!(k1_cond2 (grid1.coords t) == 1#1)) = true
  simp only [Bool.not_eq_true', beq_eq_false_iff_ne, ne_eq]; exact h
/-- and its block is not written back there. -/
theorem noFlush1_3 (t : Fin cfg1.N) (h : ¬cond1_1 (grid1.coords t)) : (cfg1.win 3).flush t = false :=
  Bool.eq_false_iff.mpr fun hf => h ((hcond1_1 t).mpr ((flush1_3 t).mp hf))
/-- At k = 15 it is live. -/
theorem liveAt1_3 (t : Fin cfg1.N) (h : cond1_1 (grid1.coords t)) : cfg1.idle 3 (grid1.coords t) = false := by
  show (!(k1_cond2 (grid1.coords t) == 1#1)) = false
  simp only [Bool.not_eq_false', beq_iff_eq]; exact h

/-! ## The body's three runs, on any whole memrefs -/

/-- The offsets of every access of the body are zero. -/
theorem hz2 : (![0, 0] : Fin 2 → Nat) = fun _ => 0 := funext fun a => by fin_cases a <;> rfl

/-- A store of the whole 256 × 256 buffer, made last, leaves its payload whatever was stored before. -/
theorem read_store_all (v : View sig .tc .vmem S256x256 .f32) (f : v.ty.Contents (Elt F)) (w : Vec F S256x256 .f32)
    (L : List (View.Piece (Elt F) S256x256 .f32)) :
    v.read (Elt F) (v.writes (Elt F) f ((⟨rAll, w⟩ : View.Piece (Elt F) S256x256 .f32) :: L)) = w := by
  rw [View.read_writes_eq_canon _ _ _ (fun y => ⟨_, List.mem_cons_self, View.mem_set_unit_zero hz2 inb_S256x256_S256x256_0_0 y⟩), View.canon_cons_unit_zero hz2]

/-- A load of a whole 256 × 256 buffer reads its contents. -/
theorem load_all {m : Memref sig .tc .vmem S256x256 .f32} (h : m.IsWhole) (X : Vec F S256x256 .f32) :
    m.view.readAt (Elt F) rAll.toLoadRect (h.unread X) = X := by
  rw [View.readAt_eq_ld, h.read_unread]; exact View.ld_unit_zero (S := S256x256) hz2 _ X

/-- A load of the whole 1 × 256 bias buffer reads its contents. -/
theorem load_bias {m : Memref sig .tc .vmem S1x256 .f32} (h : m.IsWhole) (X : Vec F S1x256 .f32) :
    m.view.readAt (Elt F) rBias.toLoadRect (h.unread X) = X := by
  rw [View.readAt_eq_ld, h.read_unread]; exact View.ld_unit_zero (S := S1x256) hz2 _ X

/-- A load of the whole 256 × 256 buffer after one store of the whole of it reads the payload. -/
theorem load_stored (v : View sig .tc .vmem S256x256 .f32) (w : Vec F S256x256 .f32) :
    v.readCov [(⟨rAll, w⟩ : View.Piece (Elt F) S256x256 .f32)] rAll.toLoadRect = w :=
  View.readCov_unit_zero (S := S256x256) v hz2 _ w

set_option maxHeartbeats 1000000 in
/-- Case B (0 < k < 15): the block product is added to the accumulator; the output buffer is not touched. -/
theorem runB (c : Dev nD) (i : grid1.Coords) (arg2 : Memref sig .tc .vmem S256x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S256x256 .f32) (harg6 : arg6.IsWhole)
    (hc0 : ¬cond1_0 i) (hc1 : ¬cond1_1 i)
    (x0 x1 : Vec F S256x256 .f32) (x2 : Vec F S1x256 .f32) (d3 acc : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare acc
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare (k1_pay2 acc x0 x1)) -∗ K ⟨⟩))
      ⊢ wp frame (wpE (defs₀ (F := F)) Variants.none c none) E (cc1_aggregate_kernel i arg2 harg2 arg3 harg3 arg4 harg4 arg5 harg5 arg6 harg6) K := by
  simp only [cc1_aggregate_kernel_eq_skeleton]; unfold cc1_aggregate_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  refine (read_store_all _ _ _ _).trans ?_
  rw [load_all harg6, load_all harg2, load_all harg3]

set_option maxHeartbeats 1000000 in
/-- Case A (k = 0): the accumulator, whatever it held, is zero-filled and the block product added to that; the output
    buffer is not touched. -/
theorem runA (c : Dev nD) (i : grid1.Coords) (arg2 : Memref sig .tc .vmem S256x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S256x256 .f32) (harg6 : arg6.IsWhole)
    (hc0 : cond1_0 i) (hc1 : ¬cond1_1 i)
    (x0 x1 : Vec F S256x256 .f32) (x2 : Vec F S1x256 .f32) (d3 acc : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare acc
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare (k1_pay2 (k1_pay1 (F := F)) x0 x1)) -∗ K ⟨⟩))
      ⊢ wp frame (wpE (defs₀ (F := F)) Variants.none c none) E (cc1_aggregate_kernel i arg2 harg2 arg3 harg3 arg4 harg4 arg5 harg5 arg6 harg6) K := by
  simp only [cc1_aggregate_kernel_eq_skeleton]; unfold cc1_aggregate_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  refine (read_store_all _ _ _ _).trans ?_
  rw [load_stored, load_all harg2, load_all harg3]

set_option maxHeartbeats 1000000 in
/-- Case C (k = 15): as case B, then the accumulator plus the bias row is stored whole into the output buffer. -/
theorem runC (c : Dev nD) (i : grid1.Coords) (arg2 : Memref sig .tc .vmem S256x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S256x256 .f32) (harg6 : arg6.IsWhole)
    (hc0 : ¬cond1_0 i) (hc1 : cond1_1 i)
    (x0 x1 : Vec F S256x256 .f32) (x2 : Vec F S1x256 .f32) (d3 acc : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare acc
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 acc x0 x1) x2) ∗ owns (c : Thread nD τ) arg6 fullShare (k1_pay2 acc x0 x1)) -∗ K ⟨⟩))
      ⊢ wp frame (wpE (defs₀ (F := F)) Variants.none c none) E (cc1_aggregate_kernel i arg2 harg2 arg3 harg3 arg4 harg4 arg5 harg5 arg6 harg6) K := by
  simp only [cc1_aggregate_kernel_eq_skeleton]; unfold cc1_aggregate_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    refine (read_store_all _ _ _ _).trans ?_
    rw [load_stored, load_bias harg4, load_all harg6, load_all harg2, load_all harg3]
  iexists _; isplitr
  swap; · iexact HS
  ipureintro
  sl_unfold_run_names
  refine (read_store_all _ _ _ _).trans ?_
  rw [load_all harg6, load_all harg2, load_all harg3]

/-! ## The invariant, position by position -/

/-- The class's invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ d, owns (c : Thread nD τ) scM1 fullShare d)) ∗ (∃ r, prngReg c r)) := by
  unfold Pipeline.ΦA; rw [scopedRest1_eq]; simp only [scM1, owns_whole]; try rfl

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1 fullShare (accAt1 V c n hn)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1 fullShare (accAt1 V c (n - 1) (by omega))) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The inputs' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks. At k = 0 the invariant hands over the accumulator at
    anything (the first point) or at what the point before left, and the reset overwrites it; elsewhere it hands it over at
    what the point before left. Where k ≠ 15 the output buffer goes back as it came; at k = 15 it is stored whole. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [accAt1_reset V c t h0]
    by_cases hz : t.val = 0
    · rw [PhiS1_castSucc V c t, PhiS1_zero V c _ _ hz, PhiA1_eq]
      iintro ⟨⟨⟨Ha, Hb, Hc, Hd, He, ⟨%ds, HS⟩⟩, Hg⟩, Ho, ⟨%d0, H0⟩, ⟨%d1, H1⟩, ⟨%d2, H2⟩, ⟨%d3, H3⟩⟩
      iapply (runA c (grid1.coords t) _ _ _ _ _ _ _ _ _ _ hc0 hc1 (iblk1 V c 0 t) (iblk1 V c 1 t) (iblk1 V c 2 t) ((dat1 V c).before 3 t d3) ds Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Ha, Hb, Hc, Hd, He, HS⟩, Hg⟩, Ho, ⟨%d0, H0⟩, ⟨%d1, H1⟩, ⟨%d2, H2⟩, ⟨%d3, H3⟩⟩
      iapply (runA c (grid1.coords t) _ _ _ _ _ _ _ _ _ _ hc0 hc1 (iblk1 V c 0 t) (iblk1 V c 1 t) (iblk1 V c 2 t) ((dat1 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have hc0 : ¬cond1_0 (grid1.coords t) := fun h => h0 ((hcond1_0 t).mp h)
    rw [accAt1_step V c t h0]
    rw [PhiS1_castSucc V c t, PhiS1_pos V c _ _ hz]
    by_cases h1 : t.val % 16 = 15
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3, accAt1_step V c t h0]
      iintro ⟨⟨⟨Ha, Hb, Hc, Hd, He, HS⟩, Hg⟩, Ho, ⟨%d0, H0⟩, ⟨%d1, H1⟩, ⟨%d2, H2⟩, ⟨%d3, H3⟩⟩
      iapply (runC c (grid1.coords t) _ _ _ _ _ _ _ _ _ _ hc0 hc1 (iblk1 V c 0 t) (iblk1 V c 1 t) (iblk1 V c 2 t) ((dat1 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨⟨Ha, Hb, Hc, Hd, He, HS⟩, Hg⟩, Ho, ⟨%d0, H0⟩, ⟨%d1, H1⟩, ⟨%d2, H2⟩, ⟨%d3, H3⟩⟩
      iapply (runB c (grid1.coords t) _ _ _ _ _ _ _ _ _ _ hc0 hc1 (iblk1 V c 0 t) (iblk1 V c 1 t) (iblk1 V c 2 t) ((dat1 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      iexists _; iexact H3

/-- The body obligation of region 1 against `dat1`. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the scoped rest back, the accumulator's contents forgotten. -/
theorem hout1 (c : Dev nD) : (dat1 V c).Φ (Fin.last cfg1.N) ⊢ (Pipeline.ΦA spec1 c : sProp 𝕄) := by
  have hN : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ hN, PhiA1_eq]
  iintro ⟨⟨Ha, Hb, Hc, Hd, He, HS⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexists _; iexact HS
  iexact Hg

end Cert.ReferenceIdeal.Gen.TwoCalls

end
-- ==== Proof.LibClassARegion.lean ====
/-
  A kernel region whose invariant starts from and returns to the scoped rest and the generator register (`hΦin`,
  `hΦout`: between the first and the last point it may hold more, a scratch buffer's contents carried from point to
  point), with EXACT proof data, as a segment of a program of several regions — stated once, for any pipeline `p` of
  any family of proof data.

  Between two items of @main a core holds every unscoped buffer whole at a valuation, beside the generator register at
  some state and the core owing nothing. A region of this class is entered from the valuation `W c` its proof data read
  their arrays from (`hA`) and left at any valuation `W' c` that has each of the pipeline's arrays at what the
  write-backs leave (`hF`) and agrees with `W c` elsewhere (`hrest`): the arrays are split out of the unscoped buffers
  at entry and put back at exit, the register goes into the invariant and comes back, nothing is owed, the kernel has
  no semaphore of its own and no prefetched table.
-/
import Idealize.ShloMosaic.Lib.Pipeline.Regions
import Idealize.ShloMosaic.Lib.Pipeline.RegionsLoop
import Idealize.ShloMosaic.Lib.Pipeline.FrameSuffix

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P]

namespace ClassA

variable {U' : Type} [URA U']

local notation "𝕄₁" => MT nD τ sig Unit Val ℕ U' ℕ

variable [DecidableEq P] [∀ e, Nonempty (Val e)]
variable (pcs : P → PCfg sig Λ₀ Val) (a : (p : P) → (pcs p).Adm)
  (pdats : (p : P) → (c : Dev nD) → Dat τ Val Unit ℕ U' ℕ (pin pcs a p) c)
  (defs₀ : Defs nD τ sig Val Λ₀) (𝒱₀ : Variants)
  (L : GSem nD τ sig → Finset Unit) (lv : GSem nD τ sig → Unit → ℕ)
  (p : P)

/-- What rides beside the buffers through every item: the generator register at some state, the core owing nothing. -/
def rides (c : Dev nD) : sProp 𝕄₁ :=
  iprop((∃ r, prngReg c r) ∗ ∃ W, owes (c.tc : Thread nD τ) (0 : CellTallies nD τ sig Unit) W)

/-- The thread state between two items: every unscoped buffer at `W`, and what rides along. -/
def between (c : Dev nD) (W : Valuation τ sig Val) : sProp 𝕄₁ :=
  iprop(StableHlo.held (c.tc : Thread nD τ) (ucRefs τ sig) W ∗ rides (U' := U') c)

set_option backward.isDefEq.respectTransparency.types false in
/-- THE REGION RECORD of a class-A pipeline with exact proof data. -/
def region (kit : PLaunchFacts (nD := nD) (τ := τ) pcs p)
    (hbody : ∀ c, BodyObligation (pdats p c) defs₀ 𝒱₀ () Set.univ)
    (hq : ∀ c w, (pdats p c).q w = fullShare) (howed : ∀ c t, (pdats p c).owed t = 0)
    (hrec : ∀ c t, (pdats p c).recorded t = Set.univ)
    (hΦin : ∀ c, (ΦA (pin pcs a p).spec c : sProp 𝕄₁) ⊢ (pdats p c).Φ 0)
    (hΦout : ∀ c, (pdats p c).Φ (Fin.last (pin pcs a p).N) ⊢ (ΦA (pin pcs a p).spec c : sProp 𝕄₁))
    (hpre : ∀ c, (BI.emp : sProp 𝕄₁) ⊢ prefHeld (pcs p).pre c (fun _ => fullShare) (a p).1)
    (W W' : Dev nD → Valuation τ sig Val)
    (hA : ∀ c w, (pdats p c).A w = W c (Proc.devRef .tc (arrRef (pin pcs a p).spec w)))
    (hF : ∀ c w, (pdats p c).arrAt w (pin pcs a p).N = W' c (Proc.devRef .tc (arrRef (pin pcs a p).spec w)))
    (hrest : ∀ c (b : Ref sig .tc), b ∉ Finset.univ.image (arrRef (pin pcs a p).spec) → W' c (Proc.devRef .tc b) = W c (Proc.devRef .tc b)) :
    RegionSeg pcs a pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero pcs a pdats () L lv p howed
  pre c := between (U' := U') c (W c)
  post c := between (U' := U') c (W' c)
  X c := iprop(∃ r, prngReg c r)
  Y c := iprop(∃ r, prngReg c r)
  Z c := unscopedRest (Ix := Unit) (Name := ℕ) (U := U') (Lvl := ℕ) (pin pcs a p).spec c (fun b => W c b)
  hentry c := by
    have hsplit := arrays_of_unscopedBufs (p := p) pcs a pdats kit.win kit.arr_whole c
      ((pdats p c).share_full (hq c)) (fun b => W c b) (hA c)
    rw [unscopedBufs_held] at hsplit
    rw [ownSems0_none]
    unfold between rides
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Dat.owesAt owesWithin
      rw [howed c 0]
      icases HO with ⟨%W₁, HO⟩; iexists W₁; isplitr; · ipureintro; exact fun _ _ => Or.inl (by rw [hrec c 0]; trivial)
      iexact HO
    isplitl [Hp]; · iexact Hp
    iexact Hrest
  hin c := by
    have h : (iprop((∃ r, prngReg c r) ∗ prefHeld (pcs p).pre c (fun _ => fullShare) (a p).1 ∗ scopedRest (pin pcs a p).spec c) : sProp 𝕄₁)
        ⊢ ΦA (pin pcs a p).spec c := by
      unfold ΦA
      iintro ⟨Hp, -, Hr⟩
      isplitl [Hr]; · iexact Hr
      iexact Hp
    exact h.trans (hΦin c)
  hout c := by
    have h : (ΦA (pin pcs a p).spec c : sProp 𝕄₁)
        ⊢ iprop((∃ r, prngReg c r) ∗ ownSems0 (fun k : PEmpty => k.elim) c ∗ scopedRest (pin pcs a p).spec c) := by
      rw [ownSems0_none]; unfold ΦA
      iintro ⟨Hr, Hp⟩
      isplitl [Hp]; · iexact Hp
      isplitr; · iempintro
      iexact Hr
    exact (hΦout c).trans h
  hexit c := by
    have hjoin := unscopedBufs_of_arrays (p := p) pcs a (Ix := Unit) (Name := ℕ) (U := U') (Lvl := ℕ)
      kit.win kit.arr_whole c pdats ((pdats p c).share_full (hq c))
      (fun b => W c b) (fun b => W' c b) ((pdats p c).arrAt · (pin pcs a p).N) (hF c) (hrest c)
    rw [unscopedBufs_held] at hjoin
    unfold between rides
    iintro ⟨Ha, HO, HY, Hrest⟩
    imodintro
    isplitl [Ha Hrest]
    · iapply hjoin; isplitl [Ha] <;> iassumption
    isplitl [HY]; · iexact HY
    unfold Dat.owesAt owesWithin
    rw [howed c _]
    icases HO with ⟨%W₁, -, HO⟩; iexists W₁; iexact HO

end ClassA

end Pipeline

end Idealize.ShloMosaic

end
-- ==== Proof.RefRun.lean ====
/-
  The reference program's run: eight host stretches, then the two kernel regions, each entered with the core's buffers
  at a named valuation and left at the next; at the end the result array holds what region 1's write-backs left and
  every argument holds what it was launched with.
-/
import proofs.«123078_g2000605683403900_pallasbulk_842_18_alg».proof.Proof.RefSupport
import proofs.«123078_g2000605683403900_pallasbulk_842_18_alg».proof.Proof.RefAggregate
import proofs.«123078_g2000605683403900_pallasbulk_842_18_alg».proof.Proof.RefEntry
import proofs.«123078_g2000605683403900_pallasbulk_842_18_alg».proof.Proof.LibClassARegion

set_option maxRecDepth 16384

noncomputable section

namespace Cert.ReferenceIdeal.Gen.TwoCalls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data, the levels, what rides beside the buffers -/

/-- Both regions' proof data, each at the contents its region is entered at. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, between any two items: the generator register at some state, the core owing nothing. -/
abbrev E : Fin 3 → Dev nD → sProp 𝕄 := fun _ c => Pipeline.ClassA.rides (U' := UR sig nD τ) c

/-! ## The two regions as segments -/

set_option backward.isDefEq.respectTransparency.types false in
/-- Region 0, entered with the buffers at `Wa`, left at `Wb`: its invariant is the scoped rest and the register at
    every point. -/
def reg0 : Pipeline.RegionSeg (pcfgs (F := F)) adm (pdats m) () defs₀ 𝒱₀ L lv 0 :=
  Pipeline.ClassA.region (pcfgs (F := F)) adm (pdats m) defs₀ 𝒱₀ L lv 0 launch0.toP
    (fun c => body_obligation0 (Va m) c) (fun _ _ => rfl) (fun _ _ => rfl) (fun _ _ => rfl)
    (fun c => by show (Pipeline.ΦA spec0 c : sProp 𝕄) ⊢ Pipeline.ΦA spec0 c; exact .rfl)
    (fun c => by show (Pipeline.ΦA spec0 c : sProp 𝕄) ⊢ Pipeline.ΦA spec0 c; exact .rfl)
    (fun c => by unfold Pipeline.prefHeld; rw [show (Finset.univ : Finset (Fin 0)) = ∅ from rfl, BI.bigSep_empty])
    (Wa m) (Wb m) (fun _ _ => rfl)
    (fun c w => (Wb_arr m c w).symm)
    (fun c b hb => Wb_of_ne m c b fun w e => hb (Finset.mem_image.mpr ⟨w, Finset.mem_univ _, e⟩))

set_option backward.isDefEq.respectTransparency.types false in
/-- Region 1, entered with the buffers at `Wb`, left at `Wc`: its invariant carries the accumulator between the first
    and the last point. -/
def reg1 : Pipeline.RegionSeg (pcfgs (F := F)) adm (pdats m) () defs₀ 𝒱₀ L lv 1 :=
  Pipeline.ClassA.region (pcfgs (F := F)) adm (pdats m) defs₀ 𝒱₀ L lv 1 launch1.toP
    (fun c => body_obligation1 (Vb m) c) (fun _ _ => rfl) (fun _ _ => rfl) (fun _ _ => rfl)
    (fun c => hin1 (Vb m) c)
    (fun c => hout1 (Vb m) c)
    (fun c => by unfold Pipeline.prefHeld; rw [show (Finset.univ : Finset (Fin 0)) = ∅ from rfl, BI.bigSep_empty])
    (Wb m) (Wc m) (fun _ _ => rfl)
    (fun c w => (Wc_arr m c w).symm)
    (fun c b hb => Wc_of_ne m c b fun w e => hb (Finset.mem_image.mpr ⟨w, Finset.mem_univ _, e⟩))

/-! ## @main as segments, and the launch -/

/-- @main's ten items in order: the eight host stretches, each from the contents the one before left, then the two regions. -/
abbrev segs : List (Pipeline.Seg (pcfgs (F := F)) adm (pdats m) () defs₀ 𝒱₀ L lv) :=
  [ .host (seg0 m 𝒱₀ L lv E), .host (seg1 m 𝒱₀ L lv E), .host (seg2 m 𝒱₀ L lv E), .host (seg3 m 𝒱₀ L lv E),
    .host (seg4 m 𝒱₀ L lv E), .host (seg5 m 𝒱₀ L lv E), .host (seg6 m 𝒱₀ L lv E), .host (seg7 m 𝒱₀ L lv E),
    .region (reg0 m), .region (reg1 m) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the core's dues: every unscoped buffer at `Wc`, the generator register at some state. -/
abbrev Tₙ (c : Dev nD) : sProp 𝕄 := iprop(StableHlo.held (c : Thread nD τ) (Pipeline.ucRefs τ sig) (Wc m c) ∗ ∃ r, prngReg c r)

/-! ## The arguments end as launched: no host stretch writes one, no region has one among its arrays -/

theorem Wc_main_arg0 (c : Dev nD) : Wc m c (Proc.devRef .tc main_arg0) = m ((c : Thread nD τ).loc main_arg0) :=
  (Wc_of_ne m c main_arg0 (by decide)).trans <| (Wb_of_ne m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem Wc_main_arg1 (c : Dev nD) : Wc m c (Proc.devRef .tc main_arg1) = m ((c : Thread nD τ).loc main_arg1) :=
  (Wc_of_ne m c main_arg1 (by decide)).trans <| (Wb_of_ne m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem Wc_main_arg2 (c : Dev nD) : Wc m c (Proc.devRef .tc main_arg2) = m ((c : Thread nD τ).loc main_arg2) :=
  (Wc_of_ne m c main_arg2 (by decide)).trans <| (Wb_of_ne m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem Wc_main_arg3 (c : Dev nD) : Wc m c (Proc.devRef .tc main_arg3) = m ((c : Thread nD τ).loc main_arg3) :=
  (Wc_of_ne m c main_arg3 (by decide)).trans <| (Wb_of_ne m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-- The result array ends at what region 1's write-backs left. -/
theorem Wc_main_v6 (c : Dev nD) : Wc m c (Proc.devRef .tc main_v6) = (dat1 (Vb m) c).arrAt 3 cfg1.N := Wc_arr m c 3

set_option backward.isDefEq.respectTransparency.types false in
/-- Every weakly fair execution of the reference terminates; the result array ends at region 1's folded write-backs and
    the four arguments end as launched. -/
theorem run : θ_run defs (onTc (τ := τ) (main (F := F))) ⟨m, fun _ => 0, ρ⟩ (fun r => ∀ c : Dev nD,
      r.2.mem ((c.tc : Thread nD τ).loc main_v6) = (dat1 (Vb m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun c => by
        show Pipeline.ClassA.between (U' := UR sig nD τ) c (Wc m c) ⊢ _
        unfold Pipeline.ClassA.between Pipeline.ClassA.rides
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      unfold E Pipeline.ClassA.rides
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc m c b)
    (hfin := fun c s' => by
      iintro ⟨⟨Hh, -⟩, HSI⟩
      unfold StableHlo.held
      imodintro
      iapply (pointsTo_read_all (Pipeline.ucRefs τ sig) (fun b => (((c : Thread nD τ)).1, b)) (Wc m c) s')
      isplitl [Hh] <;> iassumption)
    (hQ := fun s h c =>
      ⟨(h c _ (mem_uc main_v6 (by decide))).trans (Wc_main_v6 m c),
       (h c _ (mem_uc main_arg0 (by decide))).trans (Wc_main_arg0 m c),
       (h c _ (mem_uc main_arg1 (by decide))).trans (Wc_main_arg1 m c),
       (h c _ (mem_uc main_arg2 (by decide))).trans (Wc_main_arg2 m c),
       (h c _ (mem_uc main_arg3 (by decide))).trans (Wc_main_arg3 m c)⟩)

end Cert.ReferenceIdeal.Gen.TwoCalls

end
-- ==== Proof.RefValue.lean ====
/-
  What the reference's result array holds after its run, index by index, as the layer function of the four arrays the
  first region finds (the padded inputs): the support array is the product x · W assembled from sixteen row blocks; output
  block i is the in-order sum over k of adjacency block (i, k) times support block k, from a zero fill, plus the bias row —
  which is the full contraction over all 4096 neighbours (`Cert.Spec.tile_sum`).
-/
import proofs.«123078_g2000605683403900_pallasbulk_842_18_alg».proof.Proof.RefEntry
import proofs.«123078_g2000605683403900_pallasbulk_842_18_alg».proof.Proof.Spec
import proofs.«123078_g2000605683403900_pallasbulk_842_18_alg».proof.Proof.LibMatmulPlain
import Idealize.ShloMosaic.Lib.Pipeline.Value
import Idealize.ShloMosaic.PureOps.Ideal.Laws

set_option maxRecDepth 16384

noncomputable section

namespace Cert.ReferenceIdeal.Gen.TwoCalls

open Idealize.ShloMosaic Idealize.ShloMosaic.TcCoe Idealize.SL.Sem
open Idealize.ShloMosaic.Pipeline (Dat)

variable (m : (ℓ : Loc nD τ sig) → Buf (Elt Ideal) ℓ)

namespace Val

open Idealize.ShloMosaic.ValueIdx

theorem hz : (![0, 0] : Fin 2 → Nat) = fun _ => 0 := funext fun a => by fin_cases a <;> rfl

/-- The first body's stored block at an index: row p of the left block against column q of the right. -/
theorem out0_2_apply (x0 x1 : Vec Ideal S256x256 .f32) (p q : Fin 256) :
    out0_2 x0 x1 (ix2 p q) = ∑ k : Fin 256, x0 (ix2 p k) * x1 (ix2 k q) := by
  unfold out0_2
  rw [View.canon_unit_zero hz]
  simp only [View.ld_unit_zero (S := S256x256) hz]
  unfold k0_pay1
  simp only [shapeCast_self]
  exact Ideal.matmul_plain_zero_apply dot_S256x256_S256x256_S256x256_1_0_0_1_n_n rfl rfl rfl rfl rfl rfl none x0 x1 p q

/-- The support array as one function of the two arrays region 0 reads. -/
abbrev supp (X : S4096x256.Idx → EReal) (W : S256x256.Idx → EReal) : S4096x256.Idx → EReal :=
  fun y => Cert.Spec.supportAt X W (y 0) (y 1)

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of the support array: the rows of X the block's rows sit at, against the whole of W. -/
theorem support_block (X : S4096x256.Idx → EReal) (W : S256x256.Idx → EReal) (x0 x1 : Vec Ideal S256x256 .f32)
    (i : S4096x256.Idx) (y : S256x256.Idx)
    (h0 : ∀ k : Fin 256, x0 (ix2 (y 0) k) = X (ix2 (i 0) k)) (h1 : ∀ k : Fin 256, x1 (ix2 k (y 1)) = W (ix2 k (i 1))) :
    out0_2 x0 x1 y = supp X W i := by
  obtain ⟨p, q, rfl⟩ : ∃ (p q : Fin 256), y = ix2 p q := ⟨y 0, y 1, eq_ix2 y⟩
  rw [out0_2_apply]
  show _ = ∑ k : Fin 256, X (ix2 (i 0) k) * W (ix2 k (i 1))
  exact Finset.sum_congr rfl fun k _ => by rw [← h0 k, ← h1 k]

theorem flushed0_eq (c : Dev nD) (t : Fin cfg0.N) :
    (dat0 (Va m) c).flushed 2 t = ((cfg0.win 2).blk t).view.read (Elt Ideal) (supp (Va m c main_v0) (Va m c main_v2)) := by
  show (cfg0.win 2).cut (grid0.coords t) ((dat0 (Va m) c).after 2 t) = _
  rw [after0_2]
  obtain ⟨e0, e1, e2, e3, e4, e5⟩ := idx_facts0 t
  funext y
  show out0_2 (iblk0 (Va m) c 0 t) (iblk0 (Va m) c 1 t) y = supp (Va m c main_v0) (Va m c main_v2) (((cfg0.win 2).blk t).view.emb y)
  refine support_block (Va m c main_v0) (Va m c main_v2) (iblk0 (Va m) c 0 t) (iblk0 (Va m) c 1 t) (((cfg0.win 2).blk t).view.emb y) y ?_ ?_
  · intro k
    show Va m c main_v0 (((cfg0.win 0).blk t).view.emb (ix2 (y 0) k)) = Va m c main_v0 _
    refine congrArg (Va m c main_v0) ?_
    funext a; apply Fin.ext
    match a with
    | ⟨0, _⟩ => show win0_0.index t (0 : Fin 2) * 256 + 1 * (y 0).val = win0_2.index t (0 : Fin 2) * 256 + 1 * (y 0).val; omega
    | ⟨1, _⟩ => show win0_0.index t (1 : Fin 2) * 256 + 1 * k.val = k.val; omega
  · intro k
    show Va m c main_v2 (((cfg0.win 1).blk t).view.emb (ix2 k (y 1))) = Va m c main_v2 _
    refine congrArg (Va m c main_v2) ?_
    funext a; apply Fin.ext
    match a with
    | ⟨0, _⟩ => show win0_1.index t (0 : Fin 2) * 256 + 1 * k.val = k.val; omega
    | ⟨1, _⟩ => show win0_1.index t (1 : Fin 2) * 256 + 1 * (y 1).val = win0_2.index t (1 : Fin 2) * 256 + 1 * (y 1).val; omega

/-- An index of the support array is in point t's block iff each coordinate is in the block's range on its axis. -/
theorem mem_blk0 (t : Fin cfg0.N) (i : S4096x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v5).slice (win0_2.rect t)).set ↔ _
  rw [View.set_slice_whole, Rect.mem_set_unit]
  exact Iff.rfl

/-- Row r of the support array is written back by point r / 256. -/
theorem cover0 (i : S4096x256.Idx) : ∃ t : Fin cfg0.N, (cfg0.win 2).flush t = true ∧ i ∈ ((cfg0.win 2).blk t).view.set := by
  have hi0 : (i 0).val < 4096 := (i 0).isLt
  have hi1 : (i 1).val < 256 := (i 1).isLt
  have hN : cfg0.N = 16 := N_0
  obtain ⟨t, ht⟩ : ∃ t : Fin cfg0.N, t.val = (i 0).val / 256 := ⟨⟨(i 0).val / 256, by rw [hN]; omega⟩, rfl⟩
  refine ⟨t, flush0_2 t, ?_⟩
  obtain ⟨e0, e1, e2, e3, e4, e5⟩ := idx_facts0 t
  rw [mem_blk0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- After region 0 the support array is x · W, index by index. -/
theorem support_eq (c : Dev nD) : (dat0 (Va m) c).arrAt 2 cfg0.N = supp (Va m c main_v0) (Va m c main_v2) :=
  (dat0 (Va m) c).arrAt_eq_of_cover 2 (supp (Va m c main_v0) (Va m c main_v2)) (fun t _ => flushed0_eq m c t) cover0

/-- The zero fill at an index. -/
theorem k1_pay1_apply (y : S256x256.Idx) : k1_pay1 (F := Ideal) y = 0 := by
  unfold k1_pay1
  simp only [shapeCast_self]
  exact Ideal.ofBits_zero_f32

/-- One step of the second body at an index: what the accumulator held plus row p of the adjacency block against
    column q of the support block. -/
theorem k1_pay2_apply (acc a s : Vec Ideal S256x256 .f32) (p q : Fin 256) :
    k1_pay2 acc a s (ix2 p q) = acc (ix2 p q) + ∑ k : Fin 256, a (ix2 p k) * s (ix2 k q) := by
  unfold k1_pay2
  simp only [shapeCast_self]
  show acc (ix2 p q) + _ = _
  exact congrArg (acc (ix2 p q) + ·) (Ideal.matmul_plain_zero_apply dot_S256x256_S256x256_S256x256_1_0_0_1_n_n rfl rfl rfl rfl rfl rfl none a s p q)

/-- The epilogue at an index: the accumulator plus the bias row's entry of the column. -/
theorem k1_pay3_apply (acc : Vec Ideal S256x256 .f32) (b : Vec Ideal S1x256 .f32) (p q : Fin 256) :
    k1_pay3 acc b (ix2 p q) = acc (ix2 p q) + b (ix2 (0 : Fin 1) q) := by
  unfold k1_pay3
  simp only [shapeCast_self]
  show acc (ix2 p q) + _ = _
  refine congrArg (acc (ix2 p q) + ·) ?_
  refine broadcastTo_apply b broadcasts_S1x256_S256x256 (ix2 p q) (ix2 (0 : Fin 1) q) ?_
  intro a
  match a with
  | ⟨0, _⟩ => rfl
  | ⟨1, _⟩ => rfl

variable (V : (c : Dev nD) → (b : Ref sig .tc) → Buf (Elt Ideal) ((c : Thread nD τ).loc b))

/-- The printed index maps of region 1, decided over its grid: point t = 16·i + k reads adjacency block (i, k), support
    block k, the one bias block, and holds output block i. -/
theorem idx_facts1 : ∀ t : Fin cfg1.N, win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

/-- The adjacency block at point t, entry (p, k): the array's entry (256·(t / 16) + p, 256·(t % 16) + k). -/
theorem adj_blk (c : Dev nD) (t : Fin cfg1.N) (p k : Fin 256) (i : S4096x4096.Idx)
    (h0 : (i 0).val = 256 * (t.val / 16) + p.val) (h1 : (i 1).val = 256 * (t.val % 16) + k.val) :
    (iblk1 V c 0 t : Vec Ideal S256x256 .f32) (ix2 p k) = (V c main_v1 : S4096x4096.Idx → EReal) i := by
  obtain ⟨e0, e1, -⟩ := idx_facts1 t
  show V c main_v1 (((cfg1.win 0).blk t).view.emb (ix2 p k)) = V c main_v1 i
  refine congrArg (V c main_v1) ?_
  funext a; apply Fin.ext
  match a with
  | ⟨0, _⟩ => show win1_0.index t (0 : Fin 2) * 256 + 1 * p.val = (i 0).val; omega
  | ⟨1, _⟩ => show win1_0.index t (1 : Fin 2) * 256 + 1 * k.val = (i 1).val; omega

/-- The support block at point t, entry (k, q): the array's entry (256·(t % 16) + k, q). -/
theorem sup_blk (c : Dev nD) (t : Fin cfg1.N) (k q : Fin 256) (i : S4096x256.Idx)
    (h0 : (i 0).val = 256 * (t.val % 16) + k.val) (h1 : (i 1).val = q.val) :
    (iblk1 V c 1 t : Vec Ideal S256x256 .f32) (ix2 k q) = (V c main_v5 : S4096x256.Idx → EReal) i := by
  obtain ⟨-, -, e2, e3, -⟩ := idx_facts1 t
  show V c main_v5 (((cfg1.win 1).blk t).view.emb (ix2 k q)) = V c main_v5 i
  refine congrArg (V c main_v5) ?_
  funext a; apply Fin.ext
  match a with
  | ⟨0, _⟩ => show win1_1.index t (0 : Fin 2) * 256 + 1 * k.val = (i 0).val; omega
  | ⟨1, _⟩ => show win1_1.index t (1 : Fin 2) * 256 + 1 * q.val = (i 1).val; omega

/-- The bias block at any point is the bias row. -/
theorem bias_blk (c : Dev nD) (t : Fin cfg1.N) (q : Fin 256) :
    (iblk1 V c 2 t : Vec Ideal S1x256 .f32) (ix2 (0 : Fin 1) q) = (V c main_v4 : S1x256.Idx → EReal) (ix2 (0 : Fin 1) q) := by
  obtain ⟨-, -, -, -, e4, e5, -⟩ := idx_facts1 t
  show V c main_v4 (((cfg1.win 2).blk t).view.emb (ix2 (0 : Fin 1) q)) = V c main_v4 _
  refine congrArg (V c main_v4) ?_
  funext a; apply Fin.ext
  match a with
  | ⟨0, _⟩ => show win1_2.index t (0 : Fin 2) * 1 + 1 * 0 = 0; omega
  | ⟨1, _⟩ => show win1_2.index t (1 : Fin 2) * 256 + 1 * q.val = q.val; omega

/-- The blocks region 1's body reads at point t, and the arrays they are blocks of, at their literal types. -/
abbrev adjB (c : Dev nD) (t : Fin cfg1.N) : Vec Ideal S256x256 .f32 := iblk1 V c 0 t
abbrev supB (c : Dev nD) (t : Fin cfg1.N) : Vec Ideal S256x256 .f32 := iblk1 V c 1 t
abbrev biasB (c : Dev nD) (t : Fin cfg1.N) : Vec Ideal S1x256 .f32 := iblk1 V c 2 t
abbrev adjA (c : Dev nD) : S4096x4096.Idx → EReal := V c main_v1
abbrev supA (c : Dev nD) : S4096x256.Idx → EReal := V c main_v5
abbrev biasA (c : Dev nD) : S1x256.Idx → EReal := V c main_v4

/-- The products row r of the adjacency contracts against column q of the support array, as a sequence (zero past
    the last neighbour). -/
def contrTerm (A : S4096x4096.Idx → EReal) (S : S4096x256.Idx → EReal) (r : Fin 4096) (q : Fin 256) (j : ℕ) : EReal :=
  if h : j < 4096 then A (ix2 r ⟨j, h⟩) * S (ix2 ⟨j, h⟩ q) else 0

/-- The block product at point t, entry (p, q), is stretch t % 16 of that sequence for row 256·(t / 16) + p. -/
theorem blk_sum (c : Dev nD) (t : Fin cfg1.N) (p q : Fin 256) (r : Fin 4096) (hr : r.val = 256 * (t.val / 16) + p.val) :
    ∑ k : Fin 256, adjB V c t (ix2 p k) * supB V c t (ix2 k q)
      = ∑ j ∈ Finset.range 256, contrTerm (adjA V c) (supA V c) r q (256 * (t.val % 16) + j) := by
  rw [Finset.sum_range]
  refine Finset.sum_congr rfl fun k _ => ?_
  have hk : k.val < 256 := k.isLt
  have hlt : 256 * (t.val % 16) + k.val < 4096 := by omega
  unfold contrTerm
  rw [dif_pos hlt]
  exact congrArg₂ (· * ·) (adj_blk V c t p k (ix2 r ⟨_, hlt⟩) hr rfl) (sup_blk V c t k q (ix2 ⟨_, hlt⟩ q) rfl rfl)

theorem accAt1_congr (c : Dev nD) (n n' : ℕ) (h : n < cfg1.N) (h' : n' < cfg1.N) (e : n = n') :
    accAt1 V c n h = accAt1 V c n' h' := by subst e; rfl

/-- THE ACCUMULATOR after point n, entry (p, q): the in-order sum of the stretches 0 … n % 16 of row
    256·(n / 16) + p's products — by induction on the point. -/
theorem acc_eq (c : Dev nD) (p q : Fin 256) : ∀ (n : ℕ) (h : n < cfg1.N) (r : Fin 4096), r.val = 256 * (n / 16) + p.val →
    (accAt1 V c n h : Vec Ideal S256x256 .f32) (ix2 p q) = Cert.Spec.tileAcc (contrTerm (adjA V c) (supA V c) r q) (n % 16) := by
  intro n
  induction n with
  | zero =>
    intro h r hr
    refine (congrFun (accAt1_reset V c ⟨0, h⟩ rfl) (ix2 p q)).trans ?_
    refine (k1_pay2_apply _ (adjB V c ⟨0, h⟩) (supB V c ⟨0, h⟩) p q).trans ?_
    rw [k1_pay1_apply, blk_sum V c ⟨0, h⟩ p q r hr]
    show _ = Cert.Spec.tileAcc _ 0
    rw [Cert.Spec.tileAcc]
    simp only [Nat.zero_mod, Nat.mul_zero, Nat.zero_add]
  | succ n ih =>
    intro h r hr
    by_cases hm : (n + 1) % 16 = 0
    · refine (congrFun (accAt1_reset V c ⟨n + 1, h⟩ hm) (ix2 p q)).trans ?_
      refine (k1_pay2_apply _ (adjB V c ⟨n + 1, h⟩) (supB V c ⟨n + 1, h⟩) p q).trans ?_
      rw [k1_pay1_apply, blk_sum V c ⟨n + 1, h⟩ p q r hr]
      show _ = Cert.Spec.tileAcc _ ((n + 1) % 16)
      rw [hm, Cert.Spec.tileAcc]
      simp only [Nat.mul_zero, Nat.zero_add]
    · refine (congrFun (accAt1_step V c ⟨n + 1, h⟩ hm) (ix2 p q)).trans ?_
      refine (k1_pay2_apply _ (adjB V c ⟨n + 1, h⟩) (supB V c ⟨n + 1, h⟩) p q).trans ?_
      rw [blk_sum V c ⟨n + 1, h⟩ p q r hr]
      have hr' : r.val = 256 * (n / 16) + p.val := by rw [hr]; show 256 * ((n + 1) / 16) + p.val = _; omega
      have e := ih (Nat.lt_of_succ_lt h) r hr'
      rw [accAt1_congr V c (n + 1 - 1) n _ (Nat.lt_of_succ_lt h) rfl, e]
      have hk : (n + 1) % 16 = n % 16 + 1 := by omega
      show _ = Cert.Spec.tileAcc _ ((n + 1) % 16)
      rw [hk, Cert.Spec.tileAcc]

/-- The layer with the support array as an argument: out[i, l] = (∑ j, A[i, j] · S[j, l]) + B[0, l]. -/
abbrev layer (A : S4096x4096.Idx → EReal) (S : S4096x256.Idx → EReal) (B : S1x256.Idx → EReal) : S4096x256.Idx → EReal :=
  fun y => (∑ j : Fin 4096, A (ix2 (y 0) j) * S (ix2 j (y 1))) + B (ix2 (0 : Fin 1) (y 1))

/-- What a point with k = 15 leaves in the output block at (p, q): the full contraction of row 256·(t / 16) + p plus the
    bias — the sixteen stretches added in order are the sum over all 4096 neighbours. -/
theorem flush1_pt (c : Dev nD) (t : Fin cfg1.N) (hf : t.val % 16 = 15) (y : S256x256.Idx) (i : S4096x256.Idx)
    (h0 : (i 0).val = 256 * (t.val / 16) + (y 0).val) (h1 : (i 1).val = (y 1).val) :
    k1_pay3 (accAt1 V c t.val t.isLt) (biasB V c t) y = layer (adjA V c) (supA V c) (biasA V c) i := by
  obtain ⟨p, q, rfl⟩ : ∃ (p q : Fin 256), y = ix2 p q := ⟨y 0, y 1, eq_ix2 y⟩
  obtain ⟨r, q', rfl⟩ : ∃ (r : Fin 4096) (q' : Fin 256), i = ix2 r q' := ⟨i 0, i 1, eq_ix2 i⟩
  obtain rfl : q' = q := Fin.ext h1
  refine (k1_pay3_apply _ _ p q').trans ?_
  refine congrArg₂ (· + ·) ?_ (bias_blk V c t q')
  rw [acc_eq V c p q' t.val t.isLt r h0, hf, Cert.Spec.tile_sum]
  show ∑ j ∈ Finset.range 4096, _ = ∑ j : Fin 4096, adjA V c (ix2 r j) * supA V c (ix2 j q')
  rw [Finset.sum_range]
  refine Finset.sum_congr rfl fun j _ => ?_
  unfold contrTerm
  rw [dif_pos j.isLt]

/-- WHAT A FLUSHING POINT WRITES BACK is its block of the layer function of the arrays region 1 finds. -/
theorem flushed1_eq (c : Dev nD) (t : Fin cfg1.N) (hf : (cfg1.win 3).flush t = true) :
    (dat1 V c).flushed 3 t = ((cfg1.win 3).blk t).view.read (Elt Ideal) (layer (adjA V c) (supA V c) (biasA V c)) := by
  have hm : t.val % 16 = 15 := (flush1_3 t).mp hf
  show (cfg1.win 3).cut (grid1.coords t) ((dat1 V c).after 3 t) = _
  rw [after1_3]
  obtain ⟨-, -, -, -, -, -, e6, e7⟩ := idx_facts1 t
  funext y
  show k1_pay3 (accAt1 V c t.val t.isLt) (iblk1 V c 2 t) y = layer (adjA V c) (supA V c) (biasA V c) (((cfg1.win 3).blk t).view.emb y)
  refine flush1_pt V c t hm y (((cfg1.win 3).blk t).view.emb y) ?_ ?_
  · show win1_3.index t (0 : Fin 2) * 256 + 1 * (y 0).val = 256 * (t.val / 16) + (y 0).val; omega
  · show win1_3.index t (1 : Fin 2) * 256 + 1 * (y 1).val = (y 1).val; omega

/-- An index of the result array is in point t's block iff each coordinate is in the block's range on its axis. -/
theorem mem_blk1 (t : Fin cfg1.N) (i : S4096x256.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v6).slice (win1_3.rect t)).set ↔ _
  rw [View.set_slice_whole, Rect.mem_set_unit]
  exact Iff.rfl

/-- Row r of the result array is written back by the point 16·(r / 256) + 15. -/
theorem cover1 (i : S4096x256.Idx) : ∃ t : Fin cfg1.N, (cfg1.win 3).flush t = true ∧ i ∈ ((cfg1.win 3).blk t).view.set := by
  have hi0 : (i 0).val < 4096 := (i 0).isLt
  have hi1 : (i 1).val < 256 := (i 1).isLt
  have hN : cfg1.N = 256 := N_1
  obtain ⟨t, ht⟩ : ∃ t : Fin cfg1.N, t.val = 16 * ((i 0).val / 256) + 15 := ⟨⟨16 * ((i 0).val / 256) + 15, by rw [hN]; omega⟩, rfl⟩
  refine ⟨t, (flush1_3 t).mpr (by omega), ?_⟩
  obtain ⟨-, -, -, -, -, -, e6, e7⟩ := idx_facts1 t
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 256 ≤ (i 1).val ∧ (i 1).val < win1_3.index t (1 : Fin 2) * 256 + 256; omega

/-- After region 1 the result array is the layer function of the arrays the region finds. -/
theorem result1_eq (c : Dev nD) : (dat1 V c).arrAt 3 cfg1.N = layer (adjA V c) (supA V c) (biasA V c) :=
  (dat1 V c).arrAt_eq_of_cover 3 (layer (adjA V c) (supA V c) (biasA V c)) (fun t hf => flushed1_eq V c t hf) cover1

/-- The layer over the support array x · W is the layer function of the four arrays. -/
theorem layer_supp (X : S4096x256.Idx → EReal) (A : S4096x4096.Idx → EReal) (W : S256x256.Idx → EReal) (B : S1x256.Idx → EReal) :
    layer A (supp X W) B = Cert.Spec.G X A W B := rfl

/-- What region 1 finds: the support array as region 0 left it, the adjacency and the bias as region 0 found them. -/
theorem Vb_main_v5 (c : Dev nD) : (Vb m c main_v5 : S4096x256.Idx → EReal) = supp (Va m c main_v0) (Va m c main_v2) :=
  (Wb_arr m c 2).trans (support_eq m c)
theorem Vb_main_v1 (c : Dev nD) : (Vb m c main_v1 : S4096x4096.Idx → EReal) = Va m c main_v1 :=
  Wb_of_ne m c main_v1 (by decide)
theorem Vb_main_v4 (c : Dev nD) : (Vb m c main_v4 : S1x256.Idx → EReal) = Va m c main_v4 :=
  Wb_of_ne m c main_v4 (by decide)

end Val

/-- The result array after the run is the layer function of the arrays region 0 is entered with. -/
theorem result_eq (c : Dev nD) :
    ((dat1 (Vb m) c).arrAt 3 cfg1.N : S4096x256.Idx → EReal)
      = Cert.Spec.G (Va m c main_v0) (Va m c main_v1) (Va m c main_v2) (Va m c main_v4) := by
  refine (Val.result1_eq (Vb m) c).trans ?_
  show Val.layer (Vb m c main_v1) (Vb m c main_v5) (Vb m c main_v4) = _
  rw [Val.Vb_main_v1, Val.Vb_main_v5, Val.Vb_main_v4]
  exact Val.layer_supp _ _ _ _

end Cert.ReferenceIdeal.Gen.TwoCalls

end
-- ==== Proof.lean ====
/-
  One graph-convolution layer on a dense, row-normalised adjacency: out = adj · (x · W) + b, over f32[4096, 256],
  f32[4096, 4096], f32[256, 256], f32[256].

  The kernel is one pipelined region of eight grid points. At points 0 and 4 it forms support = x · W (operands and result
  passed through bf16, which over the extended reals is the identity) into a scratch buffer it keeps; at every point it
  contracts its 512-row adjacency block with the whole support over all 4096 neighbours and adds the bias row.
  The reference is two pipelined regions: the first writes support block row by block row; the second walks a 16 × 16
  grid, accumulating for output block i the sixteen products adj[i, k] · support[k] in order from a zero fill, and adds the
  bias row at k = 15.

  Over the extended reals both results are, at every index (i, l),
      (∑ j < 4096, adj[i, j] · ∑ k < 256, x[j, k] · W[k, l]) + b[l]          (Spec.G),
  the kernel's directly and the reference's because the in-order sum of sixteen stretches of 256 terms from 0 is the sum
  of all 4096 terms (associativity of + and 0 + a = a on the extended reals; no distributivity, so no finiteness of the
  inputs is used). Both programs begin with the same host prefix (zero-width pads, a reshape of the bias), carried here as
  the operations they are (Entry.padX …).

  Frames: the kernel's two are its generated frame certificates; the reference's is its run (RefRun.run) with the result
  dropped. The idealization rewrote nothing, so `preserves` is `True`.
-/
import proofs.«123078_g2000605683403900_pallasbulk_842_18_alg».proof.Defs
import proofs.«123078_g2000605683403900_pallasbulk_842_18_alg».proof.Proof.Gen.Kernel
import proofs.«123078_g2000605683403900_pallasbulk_842_18_alg».proof.Proof.Gen.Kernel.Frame
import proofs.«123078_g2000605683403900_pallasbulk_842_18_alg».proof.Proof.Gen.KernelIdeal
import proofs.«123078_g2000605683403900_pallasbulk_842_18_alg».proof.Proof.Gen.KernelIdeal.Frame
import proofs.«123078_g2000605683403900_pallasbulk_842_18_alg».proof.Proof.Gen.KernelIdeal.Value
import proofs.«123078_g2000605683403900_pallasbulk_842_18_alg».proof.Proof.Gen.ReferenceIdeal
import proofs.«123078_g2000605683403900_pallasbulk_842_18_alg».proof.Proof.Gen.Pre_finite_inputs
import proofs.«123078_g2000605683403900_pallasbulk_842_18_alg».proof.Proof.Spec
import proofs.«123078_g2000605683403900_pallasbulk_842_18_alg».proof.Proof.Entry
import proofs.«123078_g2000605683403900_pallasbulk_842_18_alg».proof.Proof.KerValue
import proofs.«123078_g2000605683403900_pallasbulk_842_18_alg».proof.Proof.RefRun
import proofs.«123078_g2000605683403900_pallasbulk_842_18_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2)
    (Cert.ReferenceIdeal.Gen.TwoCalls.run (F := Ideal) m ρ)

/-- From memories agreeing on the four arguments both programs end with the layer function of the padded arguments in
    their result arrays. -/
theorem algebraic : Cert.algebraic_KernelIdeal_ReferenceIdeal := by
  intro m ρ m' ρ' _ hagree
  refine ⟨fun c => Cert.Spec.G
      (Cert.Entry.padX (m ((c.tc : Thread Cert.KernelIdeal.nD Cert.KernelIdeal.τ).loc Cert.KernelIdeal.main_arg0)))
      (Cert.Entry.padA (m ((c.tc : Thread Cert.KernelIdeal.nD Cert.KernelIdeal.τ).loc Cert.KernelIdeal.main_arg1)))
      (Cert.Entry.padW (m ((c.tc : Thread Cert.KernelIdeal.nD Cert.KernelIdeal.τ).loc Cert.KernelIdeal.main_arg2)))
      (Cert.Entry.padB (m ((c.tc : Thread Cert.KernelIdeal.nD Cert.KernelIdeal.τ).loc Cert.KernelIdeal.main_arg3))), ?_, ?_⟩
  · refine (θ_run Cert.KernelIdeal.defs _ _).mono (fun r h c => ⟨(h c).1.trans ?_, (h c).2⟩)
      (Cert.KernelIdeal.Value.run_blocks (F := Ideal) m ρ)
    refine (Cert.KernelIdeal.Fused.kernel_result m c).trans ?_
    rw [Cert.Entry.ker_v0, Cert.Entry.ker_v1, Cert.Entry.ker_v2, Cert.Entry.ker_v4]
  · refine (θ_run Cert.ReferenceIdeal.defs _ _).mono (fun r h c => ⟨(h c).1.trans ?_, (h c).2⟩)
      (Cert.ReferenceIdeal.Gen.TwoCalls.run (F := Ideal) m' ρ')
    refine (Cert.ReferenceIdeal.Gen.TwoCalls.result_eq m' c).trans ?_
    rw [Cert.Entry.ref_v0, Cert.Entry.ref_v1, Cert.Entry.ref_v2, Cert.Entry.ref_v4,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
